-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S11008x1 : Shape := ⟨2, ![11008, 1]⟩
abbrev S1x11008 : Shape := ⟨2, ![1, 11008]⟩
abbrev S8192x11008 : Shape := ⟨2, ![8192, 11008]⟩
abbrev S2048x256 : Shape := ⟨2, ![2048, 256]⟩
abbrev S1536x256 : Shape := ⟨2, ![1536, 256]⟩
abbrev S1536x1 : Shape := ⟨2, ![1536, 1]⟩
abbrev S1x1536 : Shape := ⟨2, ![1, 1536]⟩
abbrev S2048x1536 : Shape := ⟨2, ![2048, 1536]⟩
abbrev S4x2048x11008 : Shape := ⟨3, ![4, 2048, 11008]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S11008, .f32⟩
  | .hbm, ⟨4, _⟩ => ⟨S8192x4096, .f32⟩
  | .hbm, ⟨5, _⟩ => ⟨S11008x1, .f32⟩
  | .hbm, ⟨6, _⟩ => ⟨S1x11008, .f32⟩
  | .hbm, ⟨7, _⟩ => ⟨S8192x11008, .f32⟩
  | .hbm, ⟨8, _⟩ => ⟨S4x2048x11008, .f32⟩
  | .local _ .vmem, ⟨0, _⟩ => ⟨S2048x256, .f32⟩
  | .local _ .vmem, ⟨1, _⟩ => ⟨S2048x256, .f32⟩
  | .local _ .vmem, ⟨2, _⟩ => ⟨S1536x256, .f32⟩
  | .local _ .vmem, ⟨3, _⟩ => ⟨S1536x256, .f32⟩
  | .local _ .vmem, ⟨4, _⟩ => ⟨S1536x1, .f32⟩
  | .local _ .vmem, ⟨5, _⟩ => ⟨S1536x1, .f32⟩
  | .local _ .vmem, ⟨6, _⟩ => ⟨S1x1536, .f32⟩
  | .local _ .vmem, ⟨7, _⟩ => ⟨S1x1536, .f32⟩
  | .local _ .vmem, ⟨8, _⟩ => ⟨S2048x1536, .f32⟩
  | .local _ .vmem, ⟨9, _⟩ => ⟨S2048x1536, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S11008_S11008x1 : S11008.ShapeCasts S11008x1
  shapeCasts_S11008_S1x11008 : S11008.ShapeCasts S1x11008
  inb_S2048x1536_S2048x1536_0_0 : ∀ a, (![0, 0] : Fin 2 → Nat) a + S2048x1536.size a ≤ S2048x1536.size a
  h_S2048x1536 : 0 < S2048x1536.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1536x256_S1536x256_0_0 : ∀ a, (![0, 0] : Fin 2 → Nat) a + S1536x256.size a ≤ S1536x256.size a
  h_S1536x256 : 0 < S1536x256.numel
  inb_S1536x1_S1536x1_0_0 : ∀ a, (![0, 0] : Fin 2 → Nat) a + S1536x1.size a ≤ S1536x1.size a
  h_S1536x1 : 0 < S1536x1.numel
  shapeCasts_S1536x1_S1536x1 : S1536x1.ShapeCasts S1536x1
  broadcasts_S1536x1_S1536x256 : S1536x1.Broadcasts S1536x256
  shapeCasts_S2048x1536_S2048x1536 : S2048x1536.ShapeCasts S2048x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S2048x1536 : S1x1536.Broadcasts S2048x1536
  shapeCasts_S8192x11008_S4x2048x11008 : S8192x11008.ShapeCasts S4x2048x11008
  dot_S2048x256_S1536x256_S2048x1536_1_1_0_0_n_n_wf : DotDims.WF S2048x256 S1536x256 S2048x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1536x256.size a < S11008x4096.size a
  hwx0_1 : ∀ i : grid0.Coords, EltTy.bits .f32 = 32 ∨ (Rect.unit (s := S11008x4096) (fun a => cc0_transform_1 i a * S1536x256.size a) (fun a => (Pipeline.Clip.of (cc0_transform_1 i a) (S1536x256.size a) (S11008x4096.size a)).extent (S1536x256.size a)) fun a => Pipeline.Clip.inb (Pipeline.Clip.ok_of (hstart0_1 i a))).WholeWords (EltTy.packing .f32)
  hwxs0_1 : ∀ i : grid0.Coords, EltTy.bits .f32 = 32 ∨ (Rect.unit (s := S1536x256) (fun _ => 0) (fun a => (Pipeline.Clip.of (cc0_transform_1 i a) (S1536x256.size a) (S11008x4096.size a)).extent (S1536x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1536x1.size a < S11008x1.size a
  hwx0_2 : ∀ i : grid0.Coords, EltTy.bits .f32 = 32 ∨ (Rect.unit (s := S11008x1) (fun a => cc0_transform_2 i a * S1536x1.size a) (fun a => (Pipeline.Clip.of (cc0_transform_2 i a) (S1536x1.size a) (S11008x1.size a)).extent (S1536x1.size a)) fun a => Pipeline.Clip.inb (Pipeline.Clip.ok_of (hstart0_2 i a))).WholeWords (EltTy.packing .f32)
  hwxs0_2 : ∀ i : grid0.Coords, EltTy.bits .f32 = 32 ∨ (Rect.unit (s := S1536x1) (fun _ => 0) (fun a => (Pipeline.Clip.of (cc0_transform_2 i a) (S1536x1.size a) (S11008x1.size a)).extent (S1536x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1536.size a < S1x11008.size a
  hwx0_3 : ∀ i : grid0.Coords, EltTy.bits .f32 = 32 ∨ (Rect.unit (s := S1x11008) (fun a => cc0_transform_3 i a * S1x1536.size a) (fun a => (Pipeline.Clip.of (cc0_transform_3 i a) (S1x1536.size a) (S1x11008.size a)).extent (S1x1536.size a)) fun a => Pipeline.Clip.inb (Pipeline.Clip.ok_of (hstart0_3 i a))).WholeWords (EltTy.packing .f32)
  hwxs0_3 : ∀ i : grid0.Coords, EltTy.bits .f32 = 32 ∨ (Rect.unit (s := S1x1536) (fun _ => 0) (fun a => (Pipeline.Clip.of (cc0_transform_3 i a) (S1x1536.size a) (S1x11008.size a)).extent (S1x1536.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S2048x1536.size a < S8192x11008.size a
  hwx0_4 : ∀ i : grid0.Coords, EltTy.bits .f32 = 32 ∨ (Rect.unit (s := S8192x11008) (fun a => cc0_transform_4 i a * S2048x1536.size a) (fun a => (Pipeline.Clip.of (cc0_transform_4 i a) (S2048x1536.size a) (S8192x11008.size a)).extent (S2048x1536.size a)) fun a => Pipeline.Clip.inb (Pipeline.Clip.ok_of (hstart0_4 i a))).WholeWords (EltTy.packing .f32)
  hwxs0_4 : ∀ i : grid0.Coords, EltTy.bits .f32 = 32 ∨ (Rect.unit (s := S2048x1536) (fun _ => 0) (fun a => (Pipeline.Clip.of (cc0_transform_4 i a) (S2048x1536.size a) (S8192x11008.size a)).extent (S2048x1536.size a)) fun a => (Nat.zero_add _).trans_le (Pipeline.Clip.extent_le (Pipeline.Clip.ok_of (hstart0_4 i a)))).WholeWords (EltTy.packing .f32)

variable [Facts₀]

def dot_S2048x256_S1536x256_S2048x1536_1_1_0_0_n_n : DotDims S2048x256 S1536x256 S2048x1536 where
  lhsContracting := [1]
  rhsContracting := [1]
  lhsNonContracting := [0]
  rhsNonContracting := [0]
  lhsBatch := []
  rhsBatch := []
  wf := dot_S2048x256_S1536x256_S2048x1536_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1536x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1536x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S1x1536.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v3) S2048x1536.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008, .f32⟩
  | .hbm, ⟨3, _⟩ => ⟨S11008, .f32⟩
  | .hbm, ⟨4, _⟩ => ⟨S11008x1, .f32⟩
  | .hbm, ⟨5, _⟩ => ⟨S11008x4096, .f32⟩
  | .hbm, ⟨6, _⟩ => ⟨S11008x4096, .f32⟩
  | .hbm, ⟨7, _⟩ => ⟨S4x2048x11008, .f32⟩
  | .hbm, ⟨8, _⟩ => ⟨S1x1x11008, .f32⟩
  | .hbm, ⟨9, _⟩ => ⟨S4x2048x11008, .f32⟩
  | .hbm, ⟨10, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.BodyDefBits.lean ====
/-
  What one run of the kernel body leaves in the accumulator's staging block, as a pure function of what the five
  staging blocks held when it started. The body branches on the reduction coordinate `k` only: at `k = 0` it
  starts from the zero block, otherwise from what the block held; it adds the product of the `x` block with the
  scaled `w` block; at `k = 15` it then adds the bias row to every row.
-/
import proofs.«107569_j20607253086856_1_alg».proof.Proof.Gen.Kernel.Skeleton

noncomputable section

namespace Cert.Kernel.Hand

open Idealize.ShloMosaic Cert.Kernel Cert.Kernel.Gen

variable {F : FTy → Type} [FloatOps F]

/-- The accumulator block after the body at reduction coordinate `k`, from the blocks the body found:
    `X0` of `x`, `X1` of `w`, `X2` of the scale column, `X3` of the bias row, `X4` the accumulator itself. -/
def bodyOut (k : ℕ) (X0 : Vec F S2048x256 .f32) (X1 : Vec F S1536x256 .f32) (X2 : Vec F S1536x1 .f32)
    (X3 : Vec F S1x1536 .f32) (X4 : Vec F S2048x1536 .f32) : Vec F S2048x1536 .f32 :=
  if k = 0 then k0_pay2 X0 X1 X2 (k0_pay1 (F := F))
  else if k = 15 then k0_pay3 (k0_pay2 X0 X1 X2 X4) X3
  else k0_pay2 X0 X1 X2 X4

theorem bodyOut_first (X0 : Vec F S2048x256 .f32) (X1 : Vec F S1536x256 .f32) (X2 : Vec F S1536x1 .f32)
    (X3 : Vec F S1x1536 .f32) (X4 : Vec F S2048x1536 .f32) :
    bodyOut 0 X0 X1 X2 X3 X4 = k0_pay2 X0 X1 X2 (k0_pay1 (F := F)) := if_pos rfl

theorem bodyOut_last (X0 : Vec F S2048x256 .f32) (X1 : Vec F S1536x256 .f32) (X2 : Vec F S1536x1 .f32)
    (X3 : Vec F S1x1536 .f32) (X4 : Vec F S2048x1536 .f32) :
    bodyOut 15 X0 X1 X2 X3 X4 = k0_pay3 (k0_pay2 X0 X1 X2 X4) X3 := by
  unfold bodyOut; rw [if_neg (by decide), if_pos rfl]

theorem bodyOut_mid (k : ℕ) (h0 : k ≠ 0) (h15 : k ≠ 15) (X0 : Vec F S2048x256 .f32) (X1 : Vec F S1536x256 .f32)
    (X2 : Vec F S1536x1 .f32) (X3 : Vec F S1x1536 .f32) (X4 : Vec F S2048x1536 .f32) :
    bodyOut k X0 X1 X2 X3 X4 = k0_pay2 X0 X1 X2 X4 := by
  unfold bodyOut; rw [if_neg h0, if_neg h15]

end Cert.Kernel.Hand

end
-- ==== Proof.BodyRunBits.lean ====
/-
  The kernel body as a triple, at any float instance and on any whole staging memrefs.

  The body's two conditionals test the reduction coordinate only: `k = 0` (zero the accumulator first) and
  `k = 15` (add the bias row last); the sixteen values of `k` meet three of the four assignments. In each the body
  loads the four input blocks whole, stores the accumulator block whole, and leaves the inputs as it found them; the
  accumulator ends at the last whole store's value, in which every earlier load of the accumulator reads what the
  store before it wrote. Together: the accumulator ends at `bodyOut k` of what the five blocks held.
-/
import proofs.«107569_j20607253086856_1_alg».proof.Proof.Gen.Kernel.Frame
import proofs.«107569_j20607253086856_1_alg».proof.Proof.BodyDefBits
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test as the body computes it from the coordinates: `k = 0`; -/
abbrev condFirst (i : grid0.Coords) : Prop :=
  (Scalar.cmpi .ne (Scalar.extui (Scalar.cmpi .eq (BitVec.ofNat 32 (i 2).val) 0#32)) 0#32) = 1#1
/-- the second's: `k = 15`. -/
abbrev condLast (i : grid0.Coords) : Prop :=
  (Scalar.cmpi .ne (Scalar.extui (Scalar.cmpi .eq (BitVec.ofNat 32 (i 2).val) 15#32)) 0#32) = 1#1

/-- Both decided over the sixteen values of the coordinate. -/
theorem condFirst_iff : ∀ k : Fin 16, (Scalar.cmpi .ne (Scalar.extui (Scalar.cmpi .eq (BitVec.ofNat 32 k.val) 0#32)) 0#32) = 1#1 ↔ k.val = 0 := by
  decide
theorem condLast_iff : ∀ k : Fin 16, (Scalar.cmpi .ne (Scalar.extui (Scalar.cmpi .eq (BitVec.ofNat 32 k.val) 15#32)) 0#32) = 1#1 ↔ k.val = 15 := by
  decide

set_option maxHeartbeats 1000000 in
/-- `k = 0`: the accumulator is zeroed, then the product is added to the zero block. -/
theorem run_first (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole) (hc1 : condFirst i) (hc2 : ¬condLast i)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (k0_pay2 X0 X1 X2 (k0_pay1 (F := F)))) -∗ K ⟨⟩))
      ⊢ wp frame (wpE (defs₀ (F := F)) Variants.none c none) E (cc0__fused_dequant_matmul_kernel i a3 h3 a4 h4 a5 h5 a6 h6 a7 h7) K := by
  simp only [cc0__fused_dequant_matmul_kernel_eq_skeleton]; unfold cc0__fused_dequant_matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h3.eq_unread hf0
  obtain rfl := h4.eq_unread hf1
  obtain rfl := h5.eq_unread hf2
  obtain rfl := h6.eq_unread hf3
  obtain rfl := h7.eq_unread hf4
  sl_exec (disch := first | exact hc1 | exact hc2)
  sl_step
  iapply Hk
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_cons_self, View.mem_set_unit_zero hz inb_S2048x1536_S2048x1536_0_0 y⟩),
    View.canon_cons_unit_zero (S := S2048x1536) hz]
  sl_unfold_words
  simp only [View.readAt_eq_ld, h3.read_unread, h4.read_unread, h5.read_unread, h6.read_unread, h7.read_unread,
    View.ld_unit_zero (S := S2048x256) hz, View.ld_unit_zero (S := S1536x256) hz, View.ld_unit_zero (S := S1536x1) hz,
    View.ld_unit_zero (S := S1x1536) hz, View.ld_unit_zero (S := S2048x1536) hz,
    View.readCov_unit_zero (S := S2048x1536) _ hz]

set_option maxHeartbeats 1000000 in
/-- `0 < k < 15`: the product is added to what the accumulator held. -/
theorem run_mid (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole) (hc1 : ¬condFirst i) (hc2 : ¬condLast i)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (k0_pay2 X0 X1 X2 X4)) -∗ K ⟨⟩))
      ⊢ wp frame (wpE (defs₀ (F := F)) Variants.none c none) E (cc0__fused_dequant_matmul_kernel i a3 h3 a4 h4 a5 h5 a6 h6 a7 h7) K := by
  simp only [cc0__fused_dequant_matmul_kernel_eq_skeleton]; unfold cc0__fused_dequant_matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h3.eq_unread hf0
  obtain rfl := h4.eq_unread hf1
  obtain rfl := h5.eq_unread hf2
  obtain rfl := h6.eq_unread hf3
  obtain rfl := h7.eq_unread hf4
  sl_exec (disch := first | exact hc1 | exact hc2)
  sl_step
  iapply Hk
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_cons_self, View.mem_set_unit_zero hz inb_S2048x1536_S2048x1536_0_0 y⟩),
    View.canon_cons_unit_zero (S := S2048x1536) hz]
  sl_unfold_words
  simp only [View.readAt_eq_ld, h3.read_unread, h4.read_unread, h5.read_unread, h6.read_unread, h7.read_unread,
    View.ld_unit_zero (S := S2048x256) hz, View.ld_unit_zero (S := S1536x256) hz, View.ld_unit_zero (S := S1536x1) hz,
    View.ld_unit_zero (S := S1x1536) hz, View.ld_unit_zero (S := S2048x1536) hz,
    View.readCov_unit_zero (S := S2048x1536) _ hz]

set_option maxHeartbeats 1000000 in
/-- `k = 15`: the product is added to what the accumulator held, then the bias row to that. -/
theorem run_last (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole) (hc1 : ¬condFirst i) (hc2 : condLast i)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (k0_pay3 (k0_pay2 X0 X1 X2 X4) X3)) -∗ K ⟨⟩))
      ⊢ wp frame (wpE (defs₀ (F := F)) Variants.none c none) E (cc0__fused_dequant_matmul_kernel i a3 h3 a4 h4 a5 h5 a6 h6 a7 h7) K := by
  simp only [cc0__fused_dequant_matmul_kernel_eq_skeleton]; unfold cc0__fused_dequant_matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h3.eq_unread hf0
  obtain rfl := h4.eq_unread hf1
  obtain rfl := h5.eq_unread hf2
  obtain rfl := h6.eq_unread hf3
  obtain rfl := h7.eq_unread hf4
  sl_exec (disch := first | exact hc1 | exact hc2)
  sl_step
  iapply Hk
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_cons_self, View.mem_set_unit_zero hz inb_S2048x1536_S2048x1536_0_0 y⟩),
    View.canon_cons_unit_zero (S := S2048x1536) hz]
  sl_unfold_words
  simp only [View.readAt_eq_ld, h3.read_unread, h4.read_unread, h5.read_unread, h6.read_unread, h7.read_unread,
    View.ld_unit_zero (S := S2048x256) hz, View.ld_unit_zero (S := S1536x256) hz, View.ld_unit_zero (S := S1536x1) hz,
    View.ld_unit_zero (S := S1x1536) hz, View.ld_unit_zero (S := S2048x1536) hz,
    View.readCov_unit_zero (S := S2048x1536) _ hz]

/-- THE BODY at any point: from the five staging blocks at any contents it runs to the inputs' as they were and the
    accumulator's at `bodyOut k` of the five. -/
theorem sound_kernel (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (bodyOut (i 2).val X0 X1 X2 X3 X4)) -∗ K ⟨⟩))
      ⊢ wp frame (wpE (defs₀ (F := F)) Variants.none c none) E (cc0__fused_dequant_matmul_kernel i a3 h3 a4 h4 a5 h5 a6 h6 a7 h7) K := by
  by_cases h0 : (i 2).val = 0
  · have hc1 : condFirst i := (condFirst_iff (i 2)).mpr h0
    have hc2 : ¬condLast i := fun h => by have := (condLast_iff (i 2)).mp h; omega
    rw [h0, bodyOut_first]
    exact run_first c i a3 h3 a4 h4 a5 h5 a6 h6 a7 h7 hc1 hc2 X0 X1 X2 X3 X4 E K
  · have hc1 : ¬condFirst i := fun h => h0 ((condFirst_iff (i 2)).mp h)
    by_cases h15 : (i 2).val = 15
    · have hc2 : condLast i := (condLast_iff (i 2)).mpr h15
      rw [h15, bodyOut_last]
      exact run_last c i a3 h3 a4 h4 a5 h5 a6 h6 a7 h7 hc1 hc2 X0 X1 X2 X3 X4 E K
    · have hc2 : ¬condLast i := fun h => h15 ((condLast_iff (i 2)).mp h)
      rw [bodyOut_mid _ h0 h15]
      exact run_mid c i a3 h3 a4 h4 a5 h5 a6 h6 a7 h7 hc1 hc2 X0 X1 X2 X3 X4 E K

end Cert.Kernel.Hand

end
-- ==== Proof.FrameBits.lean ====
/-
  The word-level program's frame: it runs to the end, faults nowhere, and leaves its four arguments as launched.

  At the word level the matrix unit's product is a function of its whole operands, and the clipped blocks of `w`,
  the scale and the bias carry words nothing names past the arrays' end: what the body leaves in the accumulator is
  not a function of the arrays alone. The frame does not need it. The proof data here are RELATIONAL and say nothing
  of what the body leaves in any staging block; the body obligation is then the body's triple from any contents to
  any contents (`sound_kernel`), and the library's frame run around the region concludes that every input array ends
  at its entry contents and every buffer the region and the host line after it do not write ends as it was.
-/
import proofs.«107569_j20607253086856_1_alg».proof.Proof.Gen.Kernel.Frame
import proofs.«107569_j20607253086856_1_alg».proof.Proof.BodyRunBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; of what the body leaves in a staging block, nothing; the
    class's invariant; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The relational body obligation: from any contents of the five current staging blocks the body runs, and leaves
    them at some contents. -/
theorem body_obligation (c : Dev nD) : (rdat m c).BodyObligation (defs₀ (F := F)) Variants.none () Set.univ := by
  intro t Y _
  rw [bigSep_W0, bigSep_W0]
  -- the invariant does not depend on the point and nothing is owed at either position
  rw [show (rdat m c).Φ t.succ = (rdat m c).Φ t.castSucc from rfl,
    show (rdat m c).owesAt () t.succ = (rdat m c).owesAt () t.castSucc from rfl]
  show _ ⊢ wp frame (wpE defs₀ Variants.none c none) Set.univ (bodyAt0 t) _
  unfold bodyAt0
  refine BIBase.Entails.trans ?_ (sound_kernel (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (Y 0) (Y 1) (Y 2) (Y 3) (Y 4) Set.univ _)
  iintro ⟨HΦ, Ho, H0, H1, H2, H3, H4⟩
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  -- each buffer is handed back at what the body left in it: the relation asks nothing
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists bodyOut (grid0.coords t 2).val (Y 0) (Y 1) (Y 2) (Y 3) (Y 4); isplitr; · ipureintro; trivial
    iexact H4

/-- The one host line after the region, a reshape into `main_v4`, writes that buffer only. -/
theorem sfx_writes : ∀ ops ∈ ([hostOps1] : List (List (HloOp τ sig (Elt F)))), ∀ op ∈ ops,
    ∀ b : Ref sig .tc, Proc.devRef .tc b ∈ op.writes → b ∈ ({main_v4} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective _ hb)

-- the launch theorem's implicit arguments are found by unifying its conclusion with this one, which takes unfolding
-- plain definitions in a metavariable's type
set_option backward.isDefEq.respectTransparency.types false in
/-- Every weakly fair execution of @main terminates; every array of the pipeline ends at some contents it may hold
    after every write-back (an input array: its entry contents), and every other unscoped buffer but `main_v4`, which
    the host line after the region writes, at what it held when the region was entered. -/
theorem run_frame : θ_run defs (onTc (τ := τ) (main (F := F))) (s₀ m ρ)
    (Pipeline.RDat.FramePostR cfg0 (rdat m) {main_v4} (fun c b => V0 m c (Proc.devRef .tc b))) :=
  Pipeline.RDat.θ_run_frame_around_T cfgs (0 : Fin 1) launch0 defs₀ Variants.none (rdat m) {main_v4} m ρ main
    (hbody := body_obligation m) (hshare := fun c => (rdat m c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fun _ _ => rfl) (hΦ := fun _ _ => rfl)

/-- THE FRAME of the word-level program, at any float instance. -/
theorem frame_bits : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  -- `w` (argument 1) is window 1's array, an input: it ends at its entry contents; arguments 0, 2 and 3 are staged by
  -- no window and written by neither the region nor the line after it; no line before the region writes any of the four
  (θ_run defs _ _).mono (fun _ h c =>
    have hT : ∀ b : Ref sig .tc, b ≠ main_v4 → b ∉ ({main_v4} : Finset (Ref sig .tc)) :=
      fun b hb hmem => hb (Finset.mem_singleton.mp hmem)
    ⟨((h c).2 main_arg0 (Finset.mem_sdiff.mpr ⟨Pipeline.mem_restRefs_of main_arg0 (by decide) (by decide),
        hT main_arg0 (by decide)⟩)).trans (V_main_arg0 m c),
      (Pipeline.RDat.FramePostR.arr_in h c 1 rfl).trans (V_main_arg1 m c),
      ((h c).2 main_arg2 (Finset.mem_sdiff.mpr ⟨Pipeline.mem_restRefs_of main_arg2 (by decide) (by decide),
        hT main_arg2 (by decide)⟩)).trans (V_main_arg2 m c),
      ((h c).2 main_arg3 (Finset.mem_sdiff.mpr ⟨Pipeline.mem_restRefs_of main_arg3 (by decide) (by decide),
        hT main_arg3 (by decide)⟩)).trans (V_main_arg3 m c)⟩) (run_frame m ρ)

end Cert.Kernel.Hand

end
-- ==== Proof.BodyDef.lean ====
/-
  What one run of the kernel body leaves in the accumulator's staging block, as a pure function of what the five
  staging blocks held when it started. The body branches on the reduction coordinate `k` only: at `k = 0` it
  starts from the zero block, otherwise from what the block held; it adds the product of the `x` block with the
  scaled `w` block; at `k = 15` it then adds the bias row to every row.
-/
import proofs.«107569_j20607253086856_1_alg».proof.Proof.Gen.KernelIdeal.Skeleton

noncomputable section

namespace Cert.KernelIdeal.Hand

open Idealize.ShloMosaic Cert.KernelIdeal Cert.KernelIdeal.Gen

variable {F : FTy → Type} [FloatOps F]

/-- The accumulator block after the body at reduction coordinate `k`, from the blocks the body found:
    `X0` of `x`, `X1` of `w`, `X2` of the scale column, `X3` of the bias row, `X4` the accumulator itself. -/
def bodyOut (k : ℕ) (X0 : Vec F S2048x256 .f32) (X1 : Vec F S1536x256 .f32) (X2 : Vec F S1536x1 .f32)
    (X3 : Vec F S1x1536 .f32) (X4 : Vec F S2048x1536 .f32) : Vec F S2048x1536 .f32 :=
  if k = 0 then k0_pay2 X0 X1 X2 (k0_pay1 (F := F))
  else if k = 15 then k0_pay3 (k0_pay2 X0 X1 X2 X4) X3
  else k0_pay2 X0 X1 X2 X4

theorem bodyOut_first (X0 : Vec F S2048x256 .f32) (X1 : Vec F S1536x256 .f32) (X2 : Vec F S1536x1 .f32)
    (X3 : Vec F S1x1536 .f32) (X4 : Vec F S2048x1536 .f32) :
    bodyOut 0 X0 X1 X2 X3 X4 = k0_pay2 X0 X1 X2 (k0_pay1 (F := F)) := if_pos rfl

theorem bodyOut_last (X0 : Vec F S2048x256 .f32) (X1 : Vec F S1536x256 .f32) (X2 : Vec F S1536x1 .f32)
    (X3 : Vec F S1x1536 .f32) (X4 : Vec F S2048x1536 .f32) :
    bodyOut 15 X0 X1 X2 X3 X4 = k0_pay3 (k0_pay2 X0 X1 X2 X4) X3 := by
  unfold bodyOut; rw [if_neg (by decide), if_pos rfl]

theorem bodyOut_mid (k : ℕ) (h0 : k ≠ 0) (h15 : k ≠ 15) (X0 : Vec F S2048x256 .f32) (X1 : Vec F S1536x256 .f32)
    (X2 : Vec F S1536x1 .f32) (X3 : Vec F S1x1536 .f32) (X4 : Vec F S2048x1536 .f32) :
    bodyOut k X0 X1 X2 X3 X4 = k0_pay2 X0 X1 X2 X4 := by
  unfold bodyOut; rw [if_neg h0, if_neg h15]

end Cert.KernelIdeal.Hand

end
-- ==== Proof.Data.lean ====
/-
  The proof data of the one pipeline, at any float instance.

  The grid has 4 · 8 · 16 = 512 points, walked in order; point `t` has coordinates (i, j, k) with
  t = 128 i + 16 j + k. The blocks of `w`, of the scale column, of the bias row and of the result overhang their
  arrays at j = 7 (11008 = 7 · 1536 + 256), so after a fetch a staging block holds the array's block on the part
  inside the array and words nothing names past it. The data below therefore name each input's staging block as
  the array's block laid over ZEROS, and the accumulator's block by recursion on the point: what the body makes
  (`bodyOut`) of those zero-filled input blocks and of what the point before left. Nothing reads the filler: the
  body obligation and the write-back see a block only on the part inside the array.
-/
import proofs.«107569_j20607253086856_1_alg».proof.Proof.Gen.KernelIdeal.Frame
import proofs.«107569_j20607253086856_1_alg».proof.Proof.BodyDef

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

variable (m : (ℓ : Loc nD τ sig) → Buf (Elt F) ℓ)

/-! ## The grid's coordinates, decided over its 512 points -/

/-- The reduction coordinate of point `t` is `t mod 16`; -/
theorem coord2 : ∀ t : Fin cfg0.N, (grid0.coords t 2).val = t.val % 16 :=
  (by decide +kernel : ∀ t : Fin grid0.N, (grid0.coords t 2).val = t.val % 16)
/-- the column-block coordinate is `(t / 16) mod 8`; -/
theorem coord1 : ∀ t : Fin cfg0.N, (grid0.coords t 1).val = t.val / 16 % 8 :=
  (by decide +kernel : ∀ t : Fin grid0.N, (grid0.coords t 1).val = t.val / 16 % 8)
/-- the row-block coordinate is `t / 128`. -/
theorem coord0 : ∀ t : Fin cfg0.N, (grid0.coords t 0).val = t.val / 128 :=
  (by decide +kernel : ∀ t : Fin grid0.N, (grid0.coords t 0).val = t.val / 128)

/-! ## The staging blocks the data name -/

/-- The zero word. -/
abbrev zw : Elt F .f32 := Scalar.ofBits .f32 0#32

/-- `x`'s block at point `t` (its blocks tile the array: nothing is cut). -/
def in0 (c : Dev nD) (t : Fin cfg0.N) : Vec F S2048x256 .f32 := iblk m c 0 t
/-- `w`'s block at point `t`, laid over zeros: rows past the array's end are zero. -/
def in1 (c : Dev nD) (t : Fin cfg0.N) : Vec F S1536x256 .f32 :=
  win0_1.fill (grid0.coords t) (fun _ => zw) (iblk m c 1 t)
/-- The scale column's block at point `t`, laid over zeros. -/
def in2 (c : Dev nD) (t : Fin cfg0.N) : Vec F S1536x1 .f32 :=
  win0_2.fill (grid0.coords t) (fun _ => zw) (iblk m c 2 t)
/-- The bias row's block at point `t`, laid over zeros. -/
def in3 (c : Dev nD) (t : Fin cfg0.N) : Vec F S1x1536 .f32 :=
  win0_3.fill (grid0.coords t) (fun _ => zw) (iblk m c 3 t)

/-- THE ACCUMULATION. What the accumulator's staging block holds after the body at position `n`: the body's
    function of the point's input blocks and of what position `n - 1` left (at a point with k = 0 the body does not
    read it). -/
def outsAt (c : Dev nD) : (n : ℕ) → n < cfg0.N → Vec F S2048x1536 .f32
  | 0, hn => bodyOut (grid0.coords ⟨0, hn⟩ 2).val (in0 m c ⟨0, hn⟩) (in1 m c ⟨0, hn⟩) (in2 m c ⟨0, hn⟩) (in3 m c ⟨0, hn⟩) (fun _ => zw)
  | n + 1, hn => bodyOut (grid0.coords ⟨n + 1, hn⟩ 2).val (in0 m c ⟨n + 1, hn⟩) (in1 m c ⟨n + 1, hn⟩) (in2 m c ⟨n + 1, hn⟩)
      (in3 m c ⟨n + 1, hn⟩) (outsAt c n (Nat.lt_of_succ_lt hn))

/-- `outsAt` at the first point. -/
theorem outsAt_zero (c : Dev nD) (hn : 0 < cfg0.N) :
    outsAt m c 0 hn = bodyOut (grid0.coords ⟨0, hn⟩ 2).val (in0 m c ⟨0, hn⟩) (in1 m c ⟨0, hn⟩) (in2 m c ⟨0, hn⟩) (in3 m c ⟨0, hn⟩) (fun _ => zw) := rfl

/-- `outsAt` at a later point, over what the point before left. -/
theorem outsAt_pos (c : Dev nD) (t : Fin cfg0.N) (ht : t.val ≠ 0) :
    outsAt m c t.val t.isLt = bodyOut (grid0.coords t 2).val (in0 m c t) (in1 m c t) (in2 m c t) (in3 m c t)
      (outsAt m c (t.val - 1) (Nat.lt_of_le_of_lt (Nat.sub_le _ _) t.isLt)) := by
  obtain ⟨n, hn⟩ := t
  cases n with
  | zero => exact absurd rfl ht
  | succ n => rfl

/-! ## The proof data -/

/-- The proof data of the one pipeline on core `c`: the arrays as the region finds them; after the body at point
    `t` each input's buffer at its (zero-filled) block and the result's at `outsAt`; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = in2 m c t := by dsimp only [dats]
theorem after_3 (c : Dev nD) (t : Fin cfg0.N) : (dats m 0 c).after 3 t = in3 m c t := by dsimp only [dats]
theorem after_4 (c : Dev nD) (t : Fin cfg0.N) : (dats m 0 c).after 4 t = outsAt m c t.val t.isLt := by dsimp only [dats]

end Cert.KernelIdeal.Hand

end
-- ==== Proof.Blocks.lean ====
/-
  The blocks at a point, read at an index.

  Point `t` has coordinates (i, j, k). The `x` block is rows 2048 i … of columns 256 k …; the `w` block is rows
  1536 j … of columns 256 k …; the scale block is rows 1536 j … of the one column; the bias block is columns
  1536 j … of the one row; the result block is rows 2048 i … of columns 1536 j …. Only 11008 = 7 · 1536 + 256 rows
  (columns) exist, so at j = 7 just the first 256 of a block's 1536 rows (columns) lie inside the array: `lim t`.
  A staging block filled by a fetch holds the array there and its filler past it.
-/
import proofs.«107569_j20607253086856_1_alg».proof.Proof.Data
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-- How many of the 1536 rows of `w`'s block at point `t` (columns of the result's block) lie inside the array. -/
def lim (t : Fin cfg0.N) : ℕ := min 1536 (11008 - 1536 * (grid0.coords t 1).val)

theorem lim_le (t : Fin cfg0.N) : lim t ≤ 1536 := Nat.min_le_left _ _

/-- Points with the same column-block coordinate have the same limit. -/
theorem lim_congr {t t' : Fin cfg0.N} (h : (grid0.coords t 1).val = (grid0.coords t' 1).val) : lim t = lim t' := by
  unfold lim; rw [h]

/-- A row below the limit is a row of the array. -/
theorem lim_inb (t : Fin cfg0.N) (n : Fin 1536) (h : n.val < lim t) : 1536 * (grid0.coords t 1).val + n.val < 11008 := by
  unfold lim at h
  have := coord1 t
  omega

/-! ## Which entries of a staging block a transfer moves -/

/-- The sizes of what each transfer moves, decided over the grid's points: on the axis that overhangs, the block's
    1536 cut at the array's 11008; on the other axis, the block's own. -/
theorem xsize1 : ∀ t : Fin cfg0.N, win0_1.xsize (grid0.coords t) 0 = min 1536 (11008 - 1536 * (grid0.coords t 1).val)
    ∧ win0_1.xsize (grid0.coords t) 1 = 256 :=
  (by decide +kernel : ∀ t : Fin grid0.N, win0_1.xsize (grid0.coords t) 0 = min 1536 (11008 - 1536 * (grid0.coords t 1).val)
    ∧ win0_1.xsize (grid0.coords t) 1 = 256)
theorem xsize2 : ∀ t : Fin cfg0.N, win0_2.xsize (grid0.coords t) 0 = min 1536 (11008 - 1536 * (grid0.coords t 1).val)
    ∧ win0_2.xsize (grid0.coords t) 1 = 1 :=
  (by decide +kernel : ∀ t : Fin grid0.N, win0_2.xsize (grid0.coords t) 0 = min 1536 (11008 - 1536 * (grid0.coords t 1).val)
    ∧ win0_2.xsize (grid0.coords t) 1 = 1)
theorem xsize3 : ∀ t : Fin cfg0.N, win0_3.xsize (grid0.coords t) 0 = 1
    ∧ win0_3.xsize (grid0.coords t) 1 = min 1536 (11008 - 1536 * (grid0.coords t 1).val) :=
  (by decide +kernel : ∀ t : Fin grid0.N, win0_3.xsize (grid0.coords t) 0 = 1
    ∧ win0_3.xsize (grid0.coords t) 1 = min 1536 (11008 - 1536 * (grid0.coords t 1).val))
theorem xsize4 : ∀ t : Fin cfg0.N, win0_4.xsize (grid0.coords t) 0 = 2048
    ∧ win0_4.xsize (grid0.coords t) 1 = min 1536 (11008 - 1536 * (grid0.coords t 1).val) :=
  (by decide +kernel : ∀ t : Fin grid0.N, win0_4.xsize (grid0.coords t) 0 = 2048
    ∧ win0_4.xsize (grid0.coords t) 1 = min 1536 (11008 - 1536 * (grid0.coords t 1).val))

/-- `w`'s block: the rows below the limit, every column. -/
theorem moved1 (t : Fin cfg0.N) (n : Fin 1536) (q : Fin 256) :
    win0_1.moved (grid0.coords t) (ix2 n q) = true ↔ n.val < lim t := by
  rw [Window.moved_iff]
  obtain ⟨e0, e1⟩ := xsize1 t
  constructor
  · intro h
    have h0 : n.val < win0_1.xsize (grid0.coords t) 0 := h 0
    unfold lim; rw [← e0]; exact h0
  · intro h a
    match a with
    | ⟨0, _⟩ => show n.val < win0_1.xsize (grid0.coords t) 0; rw [e0]; exact h
    | ⟨1, _⟩ => show q.val < win0_1.xsize (grid0.coords t) 1; rw [e1]; exact q.isLt
/-- The scale block: the rows below the limit. -/
theorem moved2 (t : Fin cfg0.N) (n : Fin 1536) :
    win0_2.moved (grid0.coords t) (ix2 n (0 : Fin 1)) = true ↔ n.val < lim t := by
  rw [Window.moved_iff]
  obtain ⟨e0, e1⟩ := xsize2 t
  constructor
  · intro h
    have h0 : n.val < win0_2.xsize (grid0.coords t) 0 := h 0
    unfold lim; rw [← e0]; exact h0
  · intro h a
    match a with
    | ⟨0, _⟩ => show n.val < win0_2.xsize (grid0.coords t) 0; rw [e0]; exact h
    | ⟨1, _⟩ => show (0 : Fin 1).val < win0_2.xsize (grid0.coords t) 1; rw [e1]; exact (0 : Fin 1).isLt
/-- The bias block: the columns below the limit. -/
theorem moved3 (t : Fin cfg0.N) (n : Fin 1536) :
    win0_3.moved (grid0.coords t) (ix2 (0 : Fin 1) n) = true ↔ n.val < lim t := by
  rw [Window.moved_iff]
  obtain ⟨e0, e1⟩ := xsize3 t
  constructor
  · intro h
    have h1 : n.val < win0_3.xsize (grid0.coords t) 1 := h 1
    unfold lim; rw [← e1]; exact h1
  · intro h a
    match a with
    | ⟨0, _⟩ => show (0 : Fin 1).val < win0_3.xsize (grid0.coords t) 0; rw [e0]; exact (0 : Fin 1).isLt
    | ⟨1, _⟩ => show n.val < win0_3.xsize (grid0.coords t) 1; rw [e1]; exact h
/-- The result's block: every row, the columns below the limit. -/
theorem moved4 (t : Fin cfg0.N) (r : Fin 2048) (n : Fin 1536) :
    win0_4.moved (grid0.coords t) (ix2 r n) = true ↔ n.val < lim t := by
  rw [Window.moved_iff]
  obtain ⟨e0, e1⟩ := xsize4 t
  constructor
  · intro h
    have h1 : n.val < win0_4.xsize (grid0.coords t) 1 := h 1
    unfold lim; rw [← e1]; exact h1
  · intro h a
    match a with
    | ⟨0, _⟩ => show r.val < win0_4.xsize (grid0.coords t) 0; rw [e0]; exact r.isLt
    | ⟨1, _⟩ => show n.val < win0_4.xsize (grid0.coords t) 1; rw [e1]; exact h

/-! ## The input blocks the data name, read at an index -/

/-- The block indices, decided over the grid's points: (i, k) for x, (j, k) for w, (j, 0) for the scale column,
    (0, j) for the bias row. -/
theorem index0 : ∀ t : Fin cfg0.N, win0_0.index t 0 = (grid0.coords t 0).val ∧ win0_0.index t 1 = (grid0.coords t 2).val :=
  (by decide +kernel : ∀ t : Fin grid0.N, win0_0.index t 0 = (grid0.coords t 0).val ∧ win0_0.index t 1 = (grid0.coords t 2).val)
theorem index1 : ∀ t : Fin cfg0.N, win0_1.index t 0 = (grid0.coords t 1).val ∧ win0_1.index t 1 = (grid0.coords t 2).val :=
  (by decide +kernel : ∀ t : Fin grid0.N, win0_1.index t 0 = (grid0.coords t 1).val ∧ win0_1.index t 1 = (grid0.coords t 2).val)
theorem index2 : ∀ t : Fin cfg0.N, win0_2.index t 0 = (grid0.coords t 1).val ∧ win0_2.index t 1 = 0 :=
  (by decide +kernel : ∀ t : Fin grid0.N, win0_2.index t 0 = (grid0.coords t 1).val ∧ win0_2.index t 1 = 0)
theorem index3 : ∀ t : Fin cfg0.N, win0_3.index t 0 = 0 ∧ win0_3.index t 1 = (grid0.coords t 1).val :=
  (by decide +kernel : ∀ t : Fin grid0.N, win0_3.index t 0 = 0 ∧ win0_3.index t 1 = (grid0.coords t 1).val)

/-- `x`'s block at (r, q) is `x` at row 2048 i + r, column 256 k + q. -/
theorem in0_apply (c : Dev nD) (t : Fin cfg0.N) (r : Fin 2048) (q : Fin 256) (R : Fin 8192) (Kk : Fin 4096)
    (hR : R.val = 2048 * (grid0.coords t 0).val + r.val) (hK : Kk.val = 256 * (grid0.coords t 2).val + q.val) :
    in0 m c t (ix2 r q) = V m c main_v0 (ix2 R Kk) := by
  obtain ⟨i0, i1⟩ := index0 t
  unfold in0 iblk
  show V m c main_v0 (((cfg0.win 0).blk t).view.emb (ix2 r q)) = V m c main_v0 (ix2 R Kk)
  refine congrArg (V m c main_v0) ?_
  funext a; apply Fin.ext
  match a with
  | ⟨0, _⟩ => show win0_0.index t 0 * 2048 + 1 * r.val = R.val; rw [i0, hR]; omega
  | ⟨1, _⟩ => show win0_0.index t 1 * 256 + 1 * q.val = Kk.val; rw [i1, hK]; omega

/-- `w`'s block at (n, q), for a row below the limit, is `w` at row 1536 j + n, column 256 k + q. -/
theorem in1_apply (c : Dev nD) (t : Fin cfg0.N) (n : Fin 1536) (q : Fin 256) (hn : n.val < lim t) (Nn : Fin 11008) (Kk : Fin 4096)
    (hN : Nn.val = 1536 * (grid0.coords t 1).val + n.val) (hK : Kk.val = 256 * (grid0.coords t 2).val + q.val) :
    in1 m c t (ix2 n q) = V m c main_arg1 (ix2 Nn Kk) := by
  obtain ⟨i0, i1⟩ := index1 t
  unfold in1 Window.fill
  rw [dif_pos ((moved1 t n q).mpr hn)]
  unfold iblk
  show V m c main_arg1 (((cfg0.win 1).blk t).view.emb _) = V m c main_arg1 (ix2 Nn Kk)
  refine congrArg (V m c main_arg1) ?_
  funext a; apply Fin.ext
  match a with
  | ⟨0, _⟩ => show win0_1.index t 0 * 1536 + 1 * n.val = Nn.val; rw [i0, hN]; omega
  | ⟨1, _⟩ => show win0_1.index t 1 * 256 + 1 * q.val = Kk.val; rw [i1, hK]; omega

/-- The scale block at (n, 0), for a row below the limit, is the scale column at row 1536 j + n. -/
theorem in2_apply (c : Dev nD) (t : Fin cfg0.N) (n : Fin 1536) (hn : n.val < lim t) (Nn : Fin 11008)
    (hN : Nn.val = 1536 * (grid0.coords t 1).val + n.val) :
    in2 m c t (ix2 n (0 : Fin 1)) = V m c main_v1 (ix2 Nn (0 : Fin 1)) := by
  obtain ⟨i0, i1⟩ := index2 t
  unfold in2 Window.fill
  rw [dif_pos ((moved2 t n).mpr hn)]
  unfold iblk
  show V m c main_v1 (((cfg0.win 2).blk t).view.emb _) = V m c main_v1 (ix2 Nn (0 : Fin 1))
  refine congrArg (V m c main_v1) ?_
  funext a; apply Fin.ext
  match a with
  | ⟨0, _⟩ => show win0_2.index t 0 * 1536 + 1 * n.val = Nn.val; rw [i0, hN]; omega
  | ⟨1, _⟩ => show win0_2.index t 1 * 1 + 1 * (0 : Fin 1).val = (0 : Fin 1).val; rw [i1]; rfl

/-- The bias block at (0, n), for a column below the limit, is the bias row at column 1536 j + n. -/
theorem in3_apply (c : Dev nD) (t : Fin cfg0.N) (n : Fin 1536) (hn : n.val < lim t) (Nn : Fin 11008)
    (hN : Nn.val = 1536 * (grid0.coords t 1).val + n.val) :
    in3 m c t (ix2 (0 : Fin 1) n) = V m c main_v2 (ix2 (0 : Fin 1) Nn) := by
  obtain ⟨i0, i1⟩ := index3 t
  unfold in3 Window.fill
  rw [dif_pos ((moved3 t n).mpr hn)]
  unfold iblk
  show V m c main_v2 (((cfg0.win 3).blk t).view.emb _) = V m c main_v2 (ix2 (0 : Fin 1) Nn)
  refine congrArg (V m c main_v2) ?_
  funext a; apply Fin.ext
  match a with
  | ⟨0, _⟩ => show win0_3.index t 0 * 1 + 1 * (0 : Fin 1).val = (0 : Fin 1).val; rw [i0]; rfl
  | ⟨1, _⟩ => show win0_3.index t 1 * 1536 + 1 * n.val = Nn.val; rw [i1, hN]; omega

end Cert.KernelIdeal.Hand

end
-- ==== Proof.Payload.lean ====
/-
  The body's three stored values read at an index, over the extended reals.

  At the ideal instance a change of float format is the identity and the matrix unit's product into the zero
  block is the plain sum, so with r a row of the x block and n a row of the w block (a column of the result):
    the zero fill is 0;
    the accumulated product is  acc(r, n) + ∑ q < 256, x(r, q) · (w(n, q) · s(n, 0));
    the bias step is            acc(r, n) + b(0, n).
  Column n of the result reads row n of `w`, of the scale column and column n of the bias row only: so two runs of the
  body whose blocks agree on the rows below a limit agree on the columns below it (`bodyOut_congr`).
-/
import proofs.«107569_j20607253086856_1_alg».proof.Proof.BodyDef
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- The zero fill is zero everywhere. -/
theorem pay1_apply (j : S2048x1536.Idx) : k0_pay1 (F := Ideal) j = 0 := by
  unfold k0_pay1
  show Ideal.ofBits .f32 0x00000000#32 = 0
  exact Ideal.ofBits_zero_f32

/-- A column broadcast along the rows' length reads the column at the same row. -/
theorem bcast_col (x : Vec Ideal S1536x1 .f32) (n : Fin 1536) (q : Fin 256) :
    broadcastTo S1536x256 x broadcasts_S1536x1_S1536x256 (ix2 n q) = x (ix2 n (0 : Fin 1)) :=
  broadcastTo_apply x broadcasts_S1536x1_S1536x256 (ix2 n q) (ix2 n (0 : Fin 1)) (fun a => match a with
    | ⟨0, _⟩ => by show n.val = if (1536 : Nat) = 1 then 0 else n.val; rw [if_neg (by decide)]
    | ⟨1, _⟩ => by show 0 = if (1 : Nat) = 1 then 0 else q.val; rw [if_pos rfl])

/-- A row broadcast down the columns' length reads the row at the same column. -/
theorem bcast_row (x : Vec Ideal S1x1536 .f32) (r : Fin 2048) (n : Fin 1536) :
    broadcastTo S2048x1536 x broadcasts_S1x1536_S2048x1536 (ix2 r n) = x (ix2 (0 : Fin 1) n) :=
  broadcastTo_apply x broadcasts_S1x1536_S2048x1536 (ix2 r n) (ix2 (0 : Fin 1) n) (fun a => match a with
    | ⟨0, _⟩ => by show 0 = if (1 : Nat) = 1 then 0 else r.val; rw [if_pos rfl]
    | ⟨1, _⟩ => by show n.val = if (1536 : Nat) = 1 then 0 else n.val; rw [if_neg (by decide)])

theorem lhs_pay2_0 (i : S2048x1536.Idx) (q : dot_S2048x256_S1536x256_S2048x1536_1_1_0_0_n_n.contr.Idx) :
    (dot_S2048x256_S1536x256_S2048x1536_1_1_0_0_n_n.lhsIdx i q 0).val = (i 0).val := by
  unfold DotDims.lhsIdx
  rw [dif_neg (show ¬(0 : Fin S2048x256.rank) ∈ dot_S2048x256_S1536x256_S2048x1536_1_1_0_0_n_n.lhsBatch by decide), dif_pos (show (0 : Fin S2048x256.rank) ∈ dot_S2048x256_S1536x256_S2048x1536_1_1_0_0_n_n.lhsNonContracting by decide)]
  rfl
theorem lhs_pay2_1 (i : S2048x1536.Idx) (q : dot_S2048x256_S1536x256_S2048x1536_1_1_0_0_n_n.contr.Idx) :
    (dot_S2048x256_S1536x256_S2048x1536_1_1_0_0_n_n.lhsIdx i q 1).val = (q ⟨0, by decide⟩).val :=
  dot_S2048x256_S1536x256_S2048x1536_1_1_0_0_n_n.lhsIdx_val_of_single rfl i q
theorem rhs_pay2_0 (i : S2048x1536.Idx) (q : dot_S2048x256_S1536x256_S2048x1536_1_1_0_0_n_n.contr.Idx) :
    (dot_S2048x256_S1536x256_S2048x1536_1_1_0_0_n_n.rhsIdx i q 0).val = (i 1).val := by
  unfold DotDims.rhsIdx
  rw [dif_neg (show ¬(0 : Fin S1536x256.rank) ∈ dot_S2048x256_S1536x256_S2048x1536_1_1_0_0_n_n.rhsBatch by decide), dif_pos (show (0 : Fin S1536x256.rank) ∈ dot_S2048x256_S1536x256_S2048x1536_1_1_0_0_n_n.rhsNonContracting by decide)]
  rfl
theorem rhs_pay2_1 (i : S2048x1536.Idx) (q : dot_S2048x256_S1536x256_S2048x1536_1_1_0_0_n_n.contr.Idx) :
    (dot_S2048x256_S1536x256_S2048x1536_1_1_0_0_n_n.rhsIdx i q 1).val = (q ⟨0, by decide⟩).val :=
  dot_S2048x256_S1536x256_S2048x1536_1_1_0_0_n_n.rhsIdx_val_of_single rfl i q

/-- The matrix unit's product into the zero block at (r, n): the plain sum over the shared axis. -/
theorem matmul_zero_apply (a : FVec Ideal S2048x256 .bf16) (b : FVec Ideal S1536x256 .bf16) (r : Fin 2048) (n : Fin 1536) :
    matmul (F := Ideal) dot_S2048x256_S1536x256_S2048x1536_1_1_0_0_n_n none a b (constant (F := Ideal) S2048x1536 .f32 0x00000000#32) (ix2 r n)
      = ∑ q : Fin 256, a (ix2 r q) * b (ix2 n q) := by
  refine (Ideal.matmul_constant_zero_apply dot_S2048x256_S1536x256_S2048x1536_1_1_0_0_n_n none a b (ix2 r n)).trans ?_
  rw [← Equiv.sum_comp (ValueIdx.contrEquiv1 dot_S2048x256_S1536x256_S2048x1536_1_1_0_0_n_n 256 rfl rfl).symm]
  refine Finset.sum_congr rfl fun k _ => ?_
  have hk := ValueIdx.contrEquiv1_symm_val dot_S2048x256_S1536x256_S2048x1536_1_1_0_0_n_n 256 rfl rfl k
  have el : dot_S2048x256_S1536x256_S2048x1536_1_1_0_0_n_n.lhsIdx (ix2 r n) ((ValueIdx.contrEquiv1 dot_S2048x256_S1536x256_S2048x1536_1_1_0_0_n_n 256 rfl rfl).symm k) = ix2 r k := funext fun a => Fin.ext (by
    match a with
    | ⟨0, _⟩ => exact lhs_pay2_0 _ _
    | ⟨1, _⟩ => exact (lhs_pay2_1 _ _).trans hk)
  have er : dot_S2048x256_S1536x256_S2048x1536_1_1_0_0_n_n.rhsIdx (ix2 r n) ((ValueIdx.contrEquiv1 dot_S2048x256_S1536x256_S2048x1536_1_1_0_0_n_n 256 rfl rfl).symm k) = ix2 n k := funext fun a => Fin.ext (by
    match a with
    | ⟨0, _⟩ => exact rhs_pay2_0 _ _
    | ⟨1, _⟩ => exact (rhs_pay2_1 _ _).trans hk)
  rw [el, er]

/-- The accumulated product at (r, n). -/
theorem pay2_apply (v3 : Vec Ideal S2048x256 .f32) (v6 : Vec Ideal S1536x256 .f32) (v7 : Vec Ideal S1536x1 .f32)
    (v13 : Vec Ideal S2048x1536 .f32) (r : Fin 2048) (n : Fin 1536) :
    k0_pay2 (F := Ideal) v3 v6 v7 v13 (ix2 r n)
      = v13 (ix2 r n) + ∑ q : Fin 256, v3 (ix2 r q) * (v6 (ix2 n q) * v7 (ix2 n (0 : Fin 1))) := by
  unfold k0_pay2
  rw [shapeCast_self, shapeCast_self, shapeCast_self]
  refine (addf_apply _ _ _).trans ?_
  rw [matmul_zero_apply]
  refine congrArg (v13 (ix2 r n) + ·) (Finset.sum_congr rfl fun q _ => ?_)
  rw [truncf_apply, truncf_apply, mulf_apply, bcast_col]

/-- The bias step at (r, n). -/
theorem pay3_apply (v20 : Vec Ideal S2048x1536 .f32) (v22 : Vec Ideal S1x1536 .f32) (r : Fin 2048) (n : Fin 1536) :
    k0_pay3 (F := Ideal) v20 v22 (ix2 r n) = v20 (ix2 r n) + v22 (ix2 (0 : Fin 1) n) := by
  unfold k0_pay3
  rw [shapeCast_self, shapeCast_self]
  refine (addf_apply _ _ _).trans ?_
  rw [bcast_row]

/-- One run of the body at (r, n), by the reduction coordinate. -/
theorem bodyOut_apply (k : ℕ) (X0 : Vec Ideal S2048x256 .f32) (X1 : Vec Ideal S1536x256 .f32) (X2 : Vec Ideal S1536x1 .f32)
    (X3 : Vec Ideal S1x1536 .f32) (X4 : Vec Ideal S2048x1536 .f32) (r : Fin 2048) (n : Fin 1536) :
    bodyOut (F := Ideal) k X0 X1 X2 X3 X4 (ix2 r n)
      = if k = 0 then 0 + ∑ q : Fin 256, X0 (ix2 r q) * (X1 (ix2 n q) * X2 (ix2 n (0 : Fin 1)))
        else if k = 15 then (X4 (ix2 r n) + ∑ q : Fin 256, X0 (ix2 r q) * (X1 (ix2 n q) * X2 (ix2 n (0 : Fin 1)))) + X3 (ix2 (0 : Fin 1) n)
        else X4 (ix2 r n) + ∑ q : Fin 256, X0 (ix2 r q) * (X1 (ix2 n q) * X2 (ix2 n (0 : Fin 1))) := by
  by_cases h0 : k = 0
  · subst h0
    rw [bodyOut_first, if_pos rfl, pay2_apply, pay1_apply]
  · by_cases h15 : k = 15
    · subst h15
      rw [bodyOut_last, if_neg (by decide), if_pos rfl, pay3_apply, pay2_apply]
    · rw [bodyOut_mid k h0 h15, if_neg h0, if_neg h15, pay2_apply]

/-- Locality: the columns below `lim` of what the body leaves depend on the rows below `lim` of `w`'s and the
    scale's blocks, on the columns below `lim` of the bias row's and, where the body reads the accumulator
    (`k ≠ 0`), on its columns below `lim`. -/
theorem bodyOut_congr (k lim : ℕ) (X0 : Vec Ideal S2048x256 .f32) (X1 X1' : Vec Ideal S1536x256 .f32)
    (X2 X2' : Vec Ideal S1536x1 .f32) (X3 X3' : Vec Ideal S1x1536 .f32) (X4 X4' : Vec Ideal S2048x1536 .f32)
    (h1 : ∀ (n : Fin 1536) (q : Fin 256), n.val < lim → X1 (ix2 n q) = X1' (ix2 n q))
    (h2 : ∀ n : Fin 1536, n.val < lim → X2 (ix2 n (0 : Fin 1)) = X2' (ix2 n (0 : Fin 1)))
    (h3 : ∀ n : Fin 1536, n.val < lim → X3 (ix2 (0 : Fin 1) n) = X3' (ix2 (0 : Fin 1) n))
    (h4 : k ≠ 0 → ∀ (r : Fin 2048) (n : Fin 1536), n.val < lim → X4 (ix2 r n) = X4' (ix2 r n))
    (r : Fin 2048) (n : Fin 1536) (hn : n.val < lim) :
    bodyOut (F := Ideal) k X0 X1 X2 X3 X4 (ix2 r n) = bodyOut (F := Ideal) k X0 X1' X2' X3' X4' (ix2 r n) := by
  rw [bodyOut_apply, bodyOut_apply]
  have hs : ∑ q : Fin 256, X0 (ix2 r q) * (X1 (ix2 n q) * X2 (ix2 n (0 : Fin 1)))
      = ∑ q : Fin 256, X0 (ix2 r q) * (X1' (ix2 n q) * X2' (ix2 n (0 : Fin 1))) :=
    Finset.sum_congr rfl fun q _ => by rw [h1 n q hn, h2 n hn]
  rw [hs, h3 n hn]
  by_cases h0 : k = 0
  · rw [if_pos h0, if_pos h0]
  · rw [if_neg h0, if_neg h0, h4 h0 r n hn]

end Cert.KernelIdeal.Hand

end
-- ==== Proof.BodyRun.lean ====
/-
  The kernel body as a triple, at any float instance and on any whole staging memrefs.

  The body's two conditionals test the reduction coordinate only: `k = 0` (zero the accumulator first) and
  `k = 15` (add the bias row last); the sixteen values of `k` meet three of the four assignments. In each the body
  loads the four input blocks whole, stores the accumulator block whole, and leaves the inputs as it found them; the
  accumulator ends at the last whole store's value, in which every earlier load of the accumulator reads what the
  store before it wrote. Together: the accumulator ends at `bodyOut k` of what the five blocks held.
-/
import proofs.«107569_j20607253086856_1_alg».proof.Proof.Gen.KernelIdeal.Frame
import proofs.«107569_j20607253086856_1_alg».proof.Proof.BodyDef
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test as the body computes it from the coordinates: `k = 0`; -/
abbrev condFirst (i : grid0.Coords) : Prop :=
  (Scalar.cmpi .ne (Scalar.extui (Scalar.cmpi .eq (BitVec.ofNat 32 (i 2).val) 0#32)) 0#32) = 1#1
/-- the second's: `k = 15`. -/
abbrev condLast (i : grid0.Coords) : Prop :=
  (Scalar.cmpi .ne (Scalar.extui (Scalar.cmpi .eq (BitVec.ofNat 32 (i 2).val) 15#32)) 0#32) = 1#1

/-- Both decided over the sixteen values of the coordinate. -/
theorem condFirst_iff : ∀ k : Fin 16, (Scalar.cmpi .ne (Scalar.extui (Scalar.cmpi .eq (BitVec.ofNat 32 k.val) 0#32)) 0#32) = 1#1 ↔ k.val = 0 := by
  decide
theorem condLast_iff : ∀ k : Fin 16, (Scalar.cmpi .ne (Scalar.extui (Scalar.cmpi .eq (BitVec.ofNat 32 k.val) 15#32)) 0#32) = 1#1 ↔ k.val = 15 := by
  decide

set_option maxHeartbeats 1000000 in
/-- `k = 0`: the accumulator is zeroed, then the product is added to the zero block. -/
theorem run_first (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole) (hc1 : condFirst i) (hc2 : ¬condLast i)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (k0_pay2 X0 X1 X2 (k0_pay1 (F := F)))) -∗ K ⟨⟩))
      ⊢ wp frame (wpE (defs₀ (F := F)) Variants.none c none) E (cc0__fused_dequant_matmul_kernel i a3 h3 a4 h4 a5 h5 a6 h6 a7 h7) K := by
  simp only [cc0__fused_dequant_matmul_kernel_eq_skeleton]; unfold cc0__fused_dequant_matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h3.eq_unread hf0
  obtain rfl := h4.eq_unread hf1
  obtain rfl := h5.eq_unread hf2
  obtain rfl := h6.eq_unread hf3
  obtain rfl := h7.eq_unread hf4
  sl_exec (disch := first | exact hc1 | exact hc2)
  sl_step
  iapply Hk
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_cons_self, View.mem_set_unit_zero hz inb_S2048x1536_S2048x1536_0_0 y⟩),
    View.canon_cons_unit_zero (S := S2048x1536) hz]
  sl_unfold_words
  simp only [View.readAt_eq_ld, h3.read_unread, h4.read_unread, h5.read_unread, h6.read_unread, h7.read_unread,
    View.ld_unit_zero (S := S2048x256) hz, View.ld_unit_zero (S := S1536x256) hz, View.ld_unit_zero (S := S1536x1) hz,
    View.ld_unit_zero (S := S1x1536) hz, View.ld_unit_zero (S := S2048x1536) hz,
    View.readCov_unit_zero (S := S2048x1536) _ hz]

set_option maxHeartbeats 1000000 in
/-- `0 < k < 15`: the product is added to what the accumulator held. -/
theorem run_mid (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole) (hc1 : ¬condFirst i) (hc2 : ¬condLast i)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (k0_pay2 X0 X1 X2 X4)) -∗ K ⟨⟩))
      ⊢ wp frame (wpE (defs₀ (F := F)) Variants.none c none) E (cc0__fused_dequant_matmul_kernel i a3 h3 a4 h4 a5 h5 a6 h6 a7 h7) K := by
  simp only [cc0__fused_dequant_matmul_kernel_eq_skeleton]; unfold cc0__fused_dequant_matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h3.eq_unread hf0
  obtain rfl := h4.eq_unread hf1
  obtain rfl := h5.eq_unread hf2
  obtain rfl := h6.eq_unread hf3
  obtain rfl := h7.eq_unread hf4
  sl_exec (disch := first | exact hc1 | exact hc2)
  sl_step
  iapply Hk
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_cons_self, View.mem_set_unit_zero hz inb_S2048x1536_S2048x1536_0_0 y⟩),
    View.canon_cons_unit_zero (S := S2048x1536) hz]
  sl_unfold_words
  simp only [View.readAt_eq_ld, h3.read_unread, h4.read_unread, h5.read_unread, h6.read_unread, h7.read_unread,
    View.ld_unit_zero (S := S2048x256) hz, View.ld_unit_zero (S := S1536x256) hz, View.ld_unit_zero (S := S1536x1) hz,
    View.ld_unit_zero (S := S1x1536) hz, View.ld_unit_zero (S := S2048x1536) hz,
    View.readCov_unit_zero (S := S2048x1536) _ hz]

set_option maxHeartbeats 1000000 in
/-- `k = 15`: the product is added to what the accumulator held, then the bias row to that. -/
theorem run_last (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole) (hc1 : ¬condFirst i) (hc2 : condLast i)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (k0_pay3 (k0_pay2 X0 X1 X2 X4) X3)) -∗ K ⟨⟩))
      ⊢ wp frame (wpE (defs₀ (F := F)) Variants.none c none) E (cc0__fused_dequant_matmul_kernel i a3 h3 a4 h4 a5 h5 a6 h6 a7 h7) K := by
  simp only [cc0__fused_dequant_matmul_kernel_eq_skeleton]; unfold cc0__fused_dequant_matmul_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h3.eq_unread hf0
  obtain rfl := h4.eq_unread hf1
  obtain rfl := h5.eq_unread hf2
  obtain rfl := h6.eq_unread hf3
  obtain rfl := h7.eq_unread hf4
  sl_exec (disch := first | exact hc1 | exact hc2)
  sl_step
  iapply Hk
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_cons_self, View.mem_set_unit_zero hz inb_S2048x1536_S2048x1536_0_0 y⟩),
    View.canon_cons_unit_zero (S := S2048x1536) hz]
  sl_unfold_words
  simp only [View.readAt_eq_ld, h3.read_unread, h4.read_unread, h5.read_unread, h6.read_unread, h7.read_unread,
    View.ld_unit_zero (S := S2048x256) hz, View.ld_unit_zero (S := S1536x256) hz, View.ld_unit_zero (S := S1536x1) hz,
    View.ld_unit_zero (S := S1x1536) hz, View.ld_unit_zero (S := S2048x1536) hz,
    View.readCov_unit_zero (S := S2048x1536) _ hz]

/-- THE BODY at any point: from the five staging blocks at any contents it runs to the inputs' as they were and the
    accumulator's at `bodyOut k` of the five. -/
theorem sound_kernel (c : Dev nD) (i : grid0.Coords)
    (a3 : Memref sig .tc .vmem S2048x256 .f32) (h3 : a3.IsWhole) (a4 : Memref sig .tc .vmem S1536x256 .f32) (h4 : a4.IsWhole)
    (a5 : Memref sig .tc .vmem S1536x1 .f32) (h5 : a5.IsWhole) (a6 : Memref sig .tc .vmem S1x1536 .f32) (h6 : a6.IsWhole)
    (a7 : Memref sig .tc .vmem S2048x1536 .f32) (h7 : a7.IsWhole)
    (X0 : Vec F S2048x256 .f32) (X1 : Vec F S1536x256 .f32) (X2 : Vec F S1536x1 .f32) (X3 : Vec F S1x1536 .f32) (X4 : Vec F S2048x1536 .f32)
    (E : Set ℕ) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare X3 ∗ owns (c : Thread nD τ) a7 fullShare X4
        ∗ (iprop(owns (c : Thread nD τ) a3 fullShare X0 ∗ owns (c : Thread nD τ) a4 fullShare X1 ∗ owns (c : Thread nD τ) a5 fullShare X2
            ∗ owns (c : Thread nD τ) a6 fullShare X3 ∗ owns (c : Thread nD τ) a7 fullShare (bodyOut (i 2).val X0 X1 X2 X3 X4)) -∗ K ⟨⟩))
      ⊢ wp frame (wpE (defs₀ (F := F)) Variants.none c none) E (cc0__fused_dequant_matmul_kernel i a3 h3 a4 h4 a5 h5 a6 h6 a7 h7) K := by
  by_cases h0 : (i 2).val = 0
  · have hc1 : condFirst i := (condFirst_iff (i 2)).mpr h0
    have hc2 : ¬condLast i := fun h => by have := (condLast_iff (i 2)).mp h; omega
    rw [h0, bodyOut_first]
    exact run_first c i a3 h3 a4 h4 a5 h5 a6 h6 a7 h7 hc1 hc2 X0 X1 X2 X3 X4 E K
  · have hc1 : ¬condFirst i := fun h => h0 ((condFirst_iff (i 2)).mp h)
    by_cases h15 : (i 2).val = 15
    · have hc2 : condLast i := (condLast_iff (i 2)).mpr h15
      rw [h15, bodyOut_last]
      exact run_last c i a3 h3 a4 h4 a5 h5 a6 h6 a7 h7 hc1 hc2 X0 X1 X2 X3 X4 E K
    · have hc2 : ¬condLast i := fun h => h15 ((condLast_iff (i 2)).mp h)
      rw [bodyOut_mid _ h0 h15]
      exact run_mid c i a3 h3 a4 h4 a5 h5 a6 h6 a7 h7 hc1 hc2 X0 X1 X2 X3 X4 E K

end Cert.KernelIdeal.Hand

end
-- ==== Proof.IdealRun.lean ====
/-
  The idealized kernel's run, at the extended reals.

  The body obligation: at point `t` the body is handed `x`'s block, the blocks of `w`, of the scale and of the bias
  each filled out past the array's end with words nothing names, and the accumulator's block as the point before
  left it (anything at a point with k = 0). By `sound_kernel` it leaves the inputs as found and the accumulator at
  `bodyOut k` of them. On the part inside the array that is `outsAt`: column n of the result reads row n of `w` and
  of the scale and column n of the bias only (`bodyOut_congr`), and those rows are the arrays' whatever fills the
  rest. The launch is the library's frame run around the region, with the one host line after it.
-/
import proofs.«107569_j20607253086856_1_alg».proof.Proof.Data
import proofs.«107569_j20607253086856_1_alg».proof.Proof.Blocks
import proofs.«107569_j20607253086856_1_alg».proof.Proof.Payload
import proofs.«107569_j20607253086856_1_alg».proof.Proof.BodyRun

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## What each staging buffer holds when the body runs -/

/-- The block the fetch of window `w` reads at point `t` is the array's block there. -/
theorem blockOf_eq (c : Dev nD) (w : Fin cfg0.W) (t : Fin cfg0.N) : (dats m 0 c).blockOf w t = iblk m c w t := by
  unfold Dat.blockOf iblk; rw [A_eq]

/-- `x`'s buffer holds `x`'s block. -/
theorem before_0 (c : Dev nD) (t : Fin cfg0.N) (d) : (dats m 0 c).before 0 t d = in0 m c t :=
  before0_0_of m (dats m 0 c) (A_eq m c 0) (after_0 m c) t d

/-- `w`'s buffer holds `w`'s block on the rows inside the array and anything past them. -/
theorem before_1 (c : Dev nD) (t : Fin cfg0.N) (d) :
    (dats m 0 c).before 1 t d = win0_1.fill (grid0.coords t) d (iblk m c 1 t) := by
  rw [(dats m 0 c).before_in_eq_fetched 1 rfl (fun _ => rfl)
    (fun t t' h => funext fun a => congrArg (fun k => Pipeline.Clip.of k (S1536x256.size a) (S11008x4096.size a)) (congrFun h a))
    (fun t => by rw [after_1, blockOf_eq]; unfold in1; exact win0_1.cut_fill _ _ _) t d]
  unfold Dat.fetched; rw [blockOf_eq]

/-- The scale column's buffer likewise (fetched only where k = 0; between, the body leaves it as found). -/
theorem before_2 (c : Dev nD) (t : Fin cfg0.N) (d) :
    (dats m 0 c).before 2 t d = win0_2.fill (grid0.coords t) d (iblk m c 2 t) := by
  rw [(dats m 0 c).before_in_eq_fetched 2 rfl (fun _ => rfl)
    (fun t t' h => funext fun a => congrArg (fun k => Pipeline.Clip.of k (S1536x1.size a) (S11008x1.size a)) (congrFun h a))
    (fun t => by rw [after_2, blockOf_eq]; unfold in2; exact win0_2.cut_fill _ _ _) t d]
  unfold Dat.fetched; rw [blockOf_eq]

/-- The bias row's buffer likewise. -/
theorem before_3 (c : Dev nD) (t : Fin cfg0.N) (d) :
    (dats m 0 c).before 3 t d = win0_3.fill (grid0.coords t) d (iblk m c 3 t) := by
  rw [(dats m 0 c).before_in_eq_fetched 3 rfl (fun _ => rfl)
    (fun t t' h => funext fun a => congrArg (fun k => Pipeline.Clip.of k (S1x1536.size a) (S1x11008.size a)) (congrFun h a))
    (fun t => by rw [after_3, blockOf_eq]; unfold in3; exact win0_3.cut_fill _ _ _) t d]
  unfold Dat.fetched; rw [blockOf_eq]

/-- The point before `t`. -/
abbrev prev (t : Fin cfg0.N) : Fin cfg0.N := ⟨t.val - 1, Nat.lt_of_le_of_lt (Nat.sub_le _ _) t.isLt⟩

/-- The accumulator's buffer at a point with k = 0 holds anything: the first point, or the point before wrote back. -/
theorem before_4_reset (c : Dev nD) (t : Fin cfg0.N) (h0 : t.val % 16 = 0) (d) : (dats m 0 c).before 4 t d = d := by
  refine (dats m 0 c).before_out_reset 4 rfl t ?_ d
  by_cases ht : t.val = 0
  · exact .inl ht
  · exact .inr ⟨ht, (flush0_4 (prev t)).mpr (by show (t.val - 1) % 16 = 15; omega)⟩

/-- At a point with k ≠ 0 it holds, on the columns inside the array, what the point before left. -/
theorem before_4_acc (c : Dev nD) (t : Fin cfg0.N) (h0 : t.val % 16 ≠ 0) (d) :
    (dats m 0 c).before 4 t d = win0_4.fill (grid0.coords (prev t)) d
      (win0_4.cut (grid0.coords (prev t)) (outsAt m c (t.val - 1) (prev t).isLt)) := by
  have ht : t.val ≠ 0 := fun h => h0 (by rw [h])
  rw [(dats m 0 c).before_out_acc 4 rfl t ht
    (Bool.eq_false_iff.mpr fun h => by have := (flush0_4 (prev t)).mp h; dsimp only at this; omega) (fun _ => rfl) d]
  unfold Dat.kept; rw [after_4]

/-! ## What the body makes of the buffers as found, on the columns inside the array -/

/-- `outsAt` at any point is the body's function of the zero-filled input blocks and of some accumulator, which after
    the first point is what the point before left. -/
theorem outsAt_step (c : Dev nD) (t : Fin cfg0.N) :
    ∃ Z, outsAt m c t.val t.isLt = bodyOut (grid0.coords t 2).val (in0 m c t) (in1 m c t) (in2 m c t) (in3 m c t) Z
      ∧ (t.val ≠ 0 → Z = outsAt m c (t.val - 1) (prev t).isLt) := by
  by_cases ht : t.val = 0
  · obtain ⟨n, hn⟩ := t
    dsimp only at ht; subst ht
    exact ⟨_, outsAt_zero m c hn, fun h => absurd rfl h⟩
  · exact ⟨_, outsAt_pos m c t ht, fun _ => rfl⟩

/-- The point before a point with k ≠ 0 lies in the same column block. -/
theorem lim_prev (t : Fin cfg0.N) (h0 : t.val % 16 ≠ 0) : lim (prev t) = lim t := by
  refine lim_congr ?_
  rw [coord1, coord1]
  show (t.val - 1) / 16 % 8 = t.val / 16 % 8
  omega

/-- Column `n` below the limit of the body's result, from the buffers as the body finds them, is `outsAt`'s: the
    result's column `n` reads row `n` of `w` and of the scale and column `n` of the bias and of the accumulator, all
    inside the array, where a buffer holds the array's block whatever fills the rest. -/
theorem bodyOut_found (c : Dev nD) (t : Fin cfg0.N) (d1 : Vec Ideal S1536x256 .f32) (d2 : Vec Ideal S1536x1 .f32)
    (d3 : Vec Ideal S1x1536 .f32) (d4 : Vec Ideal S2048x1536 .f32) (r : Fin 2048) (n : Fin 1536) (hn : n.val < lim t) :
    bodyOut (F := Ideal) (grid0.coords t 2).val (in0 m c t) (win0_1.fill (grid0.coords t) d1 (iblk m c 1 t))
      (win0_2.fill (grid0.coords t) d2 (iblk m c 2 t)) (win0_3.fill (grid0.coords t) d3 (iblk m c 3 t))
      ((dats m 0 c).before 4 t d4) (ix2 r n)
    = outsAt m c t.val t.isLt (ix2 r n) := by
  obtain ⟨Z, hZ, hZp⟩ := outsAt_step m c t
  rw [hZ]
  refine bodyOut_congr (grid0.coords t 2).val (lim t) (in0 m c t) _ (in1 m c t) _ (in2 m c t) _ (in3 m c t) _ Z ?_ ?_ ?_ ?_ r n hn
  · intro n q hn
    unfold in1 Window.fill
    rw [dif_pos ((moved1 t n q).mpr hn), dif_pos ((moved1 t n q).mpr hn)]
  · intro n hn
    unfold in2 Window.fill
    rw [dif_pos ((moved2 t n).mpr hn), dif_pos ((moved2 t n).mpr hn)]
  · intro n hn
    unfold in3 Window.fill
    rw [dif_pos ((moved3 t n).mpr hn), dif_pos ((moved3 t n).mpr hn)]
  · intro hk r n hn
    have h0 : t.val % 16 ≠ 0 := by rw [← coord2]; exact hk
    have ht : t.val ≠ 0 := fun h => h0 (by rw [h])
    rw [before_4_acc m c t h0 d4, hZp ht]
    unfold Window.fill
    rw [dif_pos ((moved4 (prev t) r n).mpr (by rw [lim_prev t h0]; exact hn))]
    rfl

/-- So the body's result and `outsAt` agree on the part of the block the write-back moves. -/
theorem cut_found (c : Dev nD) (t : Fin cfg0.N) (d1 : Vec Ideal S1536x256 .f32) (d2 : Vec Ideal S1536x1 .f32)
    (d3 : Vec Ideal S1x1536 .f32) (d4 : Vec Ideal S2048x1536 .f32) :
    win0_4.cut (grid0.coords t) (bodyOut (F := Ideal) (grid0.coords t 2).val (in0 m c t)
        (win0_1.fill (grid0.coords t) d1 (iblk m c 1 t)) (win0_2.fill (grid0.coords t) d2 (iblk m c 2 t))
        (win0_3.fill (grid0.coords t) d3 (iblk m c 3 t)) ((dats m 0 c).before 4 t d4))
      = win0_4.cut (grid0.coords t) (outsAt m c t.val t.isLt) := by
  funext j'
  obtain ⟨r, n, e⟩ : ∃ (r : Fin 2048) (n : Fin 1536), win0_4.xinj (grid0.coords t) j' = ix2 r n := ⟨_, _, eq_ix2 _⟩
  have hm : win0_4.moved (grid0.coords t) (ix2 r n) = true := e ▸ win0_4.moved_xinj (grid0.coords t) j'
  show bodyOut (F := Ideal) _ _ _ _ _ _ (win0_4.xinj (grid0.coords t) j') = outsAt m c t.val t.isLt (win0_4.xinj (grid0.coords t) j')
  rw [e]
  exact bodyOut_found m c t d1 d2 d3 d4 r n ((moved4 t r n).mp hm)

/-! ## What the body hands back, on the part each window's transfers move -/

/-- An input's buffer is left as found, which on the rows inside the array is its zero-filled block's rows. -/
theorem keep_1 (c : Dev nD) (t : Fin cfg0.N) (d1 : Vec Ideal S1536x256 .f32) :
    win0_1.fill (grid0.coords t) (win0_1.fill (grid0.coords t) d1 (iblk m c 1 t)) (win0_1.cut (grid0.coords t) (in1 m c t))
      = win0_1.fill (grid0.coords t) d1 (iblk m c 1 t) := by
  unfold in1; rw [Window.cut_fill, Window.fill_fill]
theorem keep_2 (c : Dev nD) (t : Fin cfg0.N) (d2 : Vec Ideal S1536x1 .f32) :
    win0_2.fill (grid0.coords t) (win0_2.fill (grid0.coords t) d2 (iblk m c 2 t)) (win0_2.cut (grid0.coords t) (in2 m c t))
      = win0_2.fill (grid0.coords t) d2 (iblk m c 2 t) := by
  unfold in2; rw [Window.cut_fill, Window.fill_fill]
theorem keep_3 (c : Dev nD) (t : Fin cfg0.N) (d3 : Vec Ideal S1x1536 .f32) :
    win0_3.fill (grid0.coords t) (win0_3.fill (grid0.coords t) d3 (iblk m c 3 t)) (win0_3.cut (grid0.coords t) (in3 m c t))
      = win0_3.fill (grid0.coords t) d3 (iblk m c 3 t) := by
  unfold in3; rw [Window.cut_fill, Window.fill_fill]

/-- The accumulator's buffer holds the body's result, which on the columns inside the array is `outsAt`'s. -/
theorem keep_4 (c : Dev nD) (t : Fin cfg0.N) (d1 : Vec Ideal S1536x256 .f32) (d2 : Vec Ideal S1536x1 .f32)
    (d3 : Vec Ideal S1x1536 .f32) (d4 : Vec Ideal S2048x1536 .f32) :
    win0_4.fill (grid0.coords t) (bodyOut (F := Ideal) (grid0.coords t 2).val (in0 m c t)
        (win0_1.fill (grid0.coords t) d1 (iblk m c 1 t)) (win0_2.fill (grid0.coords t) d2 (iblk m c 2 t))
        (win0_3.fill (grid0.coords t) d3 (iblk m c 3 t)) ((dats m 0 c).before 4 t d4))
      (win0_4.cut (grid0.coords t) (outsAt m c t.val t.isLt))
    = bodyOut (F := Ideal) (grid0.coords t 2).val (in0 m c t)
        (win0_1.fill (grid0.coords t) d1 (iblk m c 1 t)) (win0_2.fill (grid0.coords t) d2 (iblk m c 2 t))
        (win0_3.fill (grid0.coords t) d3 (iblk m c 3 t)) ((dats m 0 c).before 4 t d4) :=
  win0_4.fill_congr_cut (grid0.coords t) (cut_found m c t d1 d2 d3 d4)

/-- The library's body obligation in its loose form (the four clipped windows stated on the part inside the array),
    at every point. -/
theorem body_obligation (c : Dev nD) :
    BodyObligationLoose (dats (F := Ideal) m 0 c) (defs₀ (F := Ideal)) Variants.none () Set.univ := by
  intro t
  rw [bigSep_W0, bigSep_W0]
  -- no point is idle; `x`'s window is handed back whole, the four clipped ones on the part inside the array; the
  -- invariant and what is owed are the same at both positions
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (sound_kernel (F := Ideal) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (in0 m c t) (win0_1.fill (grid0.coords t) d1 (iblk m c 1 t)) (win0_2.fill (grid0.coords t) d2 (iblk m c 2 t))
    (win0_3.fill (grid0.coords t) d3 (iblk m c 3 t)) ((dats m 0 c).before 4 t d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · rw [after_0]; iexact H0
  -- each clipped window's obligation is met at the contents the buffer holds: they fill themselves out
  isplitl [H1]
  · iexists (win0_1.fill (grid0.coords t) d1 (iblk m c 1 t))
    change _ ⊢ owns (c : Thread nD τ) (win0_1.stage (cfg0.slots t 1)) fullShare (win0_1.fill (grid0.coords t)
      (win0_1.fill (grid0.coords t) d1 (iblk m c 1 t)) (win0_1.cut (grid0.coords t) ((dats m 0 c).after 1 t)))
    rw [after_1, keep_1]
  isplitl [H2]
  · iexists (win0_2.fill (grid0.coords t) d2 (iblk m c 2 t))
    change _ ⊢ owns (c : Thread nD τ) (win0_2.stage (cfg0.slots t 2)) fullShare (win0_2.fill (grid0.coords t)
      (win0_2.fill (grid0.coords t) d2 (iblk m c 2 t)) (win0_2.cut (grid0.coords t) ((dats m 0 c).after 2 t)))
    rw [after_2, keep_2]
  isplitl [H3]
  · iexists (win0_3.fill (grid0.coords t) d3 (iblk m c 3 t))
    change _ ⊢ owns (c : Thread nD τ) (win0_3.stage (cfg0.slots t 3)) fullShare (win0_3.fill (grid0.coords t)
      (win0_3.fill (grid0.coords t) d3 (iblk m c 3 t)) (win0_3.cut (grid0.coords t) ((dats m 0 c).after 3 t)))
    rw [after_3, keep_3]
  · iexists (bodyOut (F := Ideal) (grid0.coords t 2).val (in0 m c t) (win0_1.fill (grid0.coords t) d1 (iblk m c 1 t))
      (win0_2.fill (grid0.coords t) d2 (iblk m c 2 t)) (win0_3.fill (grid0.coords t) d3 (iblk m c 3 t)) ((dats m 0 c).before 4 t d4))
    change _ ⊢ owns (c : Thread nD τ) (win0_4.stage (cfg0.slots t 4)) fullShare (win0_4.fill (grid0.coords t)
      (bodyOut (F := Ideal) (grid0.coords t 2).val (in0 m c t) (win0_1.fill (grid0.coords t) d1 (iblk m c 1 t))
        (win0_2.fill (grid0.coords t) d2 (iblk m c 2 t)) (win0_3.fill (grid0.coords t) d3 (iblk m c 3 t)) ((dats m 0 c).before 4 t d4))
      (win0_4.cut (grid0.coords t) ((dats m 0 c).after 4 t)))
    rw [after_4, keep_4]

-- the launch theorem's implicit arguments are found by unifying its conclusion with this one, which takes unfolding
-- plain definitions in a metavariable's type
set_option backward.isDefEq.respectTransparency.types false in
/-- Every weakly fair execution of @main terminates, every array of the pipeline ends at what the library computes
    from the proof data, and every other unscoped buffer at what the host line after the region makes of those. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame_ideal : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The function both programs compute, and the two laws of finite sums that join their arrangements.

  For x : [4, 2048, 4096], w : [11008, 4096], s, b : [11008] over the extended reals the result at (p, r, o) is
      (∑ i < 4096, x(p, r, i) · (w(o, i) · s(o))) + b(o).
  The kernel reaches the same number as a running total over sixteen runs of 256 terms, started from zero;
  in a commutative additive monoid that running total is the whole sum: no finiteness is needed, since only
  associativity, commutativity and the neutral zero of addition are used.
-/
import Idealize.ShloMosaic.Lib.ValueIdx
import Idealize.ShloMosaic.PureOps.Ideal
import Mathlib.Algebra.BigOperators.Fin
import Mathlib.Algebra.BigOperators.Intervals

noncomputable section

namespace Cert.Spec

open Idealize.ShloMosaic Idealize.ShloMosaic.ValueIdx

/-- The dequantised linear layer, index by index: the row of `x` against the scaled row of `w`, plus the bias. -/
def G (x : (⟨3, ![4, 2048, 4096]⟩ : Shape).Idx → EReal) (w : (⟨2, ![11008, 4096]⟩ : Shape).Idx → EReal)
    (s b : (⟨1, ![11008]⟩ : Shape).Idx → EReal) : (⟨3, ![4, 2048, 11008]⟩ : Shape).Idx → EReal :=
  fun i => (∑ k : Fin 4096, x (ix3 (i 0) (i 1) k) * (w (ix2 (i 2) k) * s (ix1 (i 2)))) + b (ix1 (i 2))

variable {M : Type} [AddCommMonoid M]

/-- The running total after run `k`: zero plus run 0, then each later run added on the right. -/
def accFold (P : ℕ → M) : ℕ → M
  | 0 => 0 + P 0
  | k + 1 => accFold P k + P (k + 1)

theorem accFold_zero (P : ℕ → M) : accFold P 0 = 0 + P 0 := rfl
theorem accFold_succ (P : ℕ → M) (k : ℕ) : accFold P (k + 1) = accFold P k + P (k + 1) := rfl

/-- The running total is the sum of the runs so far. -/
theorem accFold_eq_sum (P : ℕ → M) (k : ℕ) : accFold P k = ∑ k' ∈ Finset.range (k + 1), P k' := by
  induction k with
  | zero => rw [accFold_zero, zero_add, Finset.sum_range_one]
  | succ n ih => rw [accFold_succ, ih, Finset.sum_range_succ _ (n + 1)]

/-- A sum of 4096 terms is the sum of its sixteen runs of 256. -/
theorem sum_runs (f : ℕ → M) :
    ∑ kk : Fin 4096, f kk.val = ∑ k ∈ Finset.range 16, ∑ q : Fin 256, f (256 * k + q.val) := by
  -- the sixteen runs as a sum over pairs (run, place), carried to Fin 4096 by (k, q) ↦ q + 256 * k
  rw [Finset.sum_range (fun k => ∑ q : Fin 256, f (256 * k + q.val)), ← Fintype.sum_prod_type']
  refine (Fintype.sum_equiv (finProdFinEquiv (m := 16) (n := 256)) _ (fun kk : Fin 4096 => f kk.val) ?_).symm
  rintro ⟨k, q⟩
  simp only [finProdFinEquiv_apply_val, Nat.add_comm]

/-- The two together: the running total after the last run, each run a sum of 256 terms, is the whole sum. -/
theorem accFold_runs (f : ℕ → M) :
    accFold (fun k => ∑ q : Fin 256, f (256 * k + q.val)) 15 = ∑ kk : Fin 4096, f kk.val := by
  rw [accFold_eq_sum, sum_runs]

end Cert.Spec

end
-- ==== Proof.ValueDefs.lean ====
/-
  The names the value proof is written over, at the extended reals: the four arrays as the region finds them, the
  terms and the runs of the row-by-row product, and the result's entry.

  With X = `x` as [8192, 4096], W = `w`, S the scale as a column and B the bias as a row, the result's entry at
  (R, N) is (∑ kk < 4096, X(R, kk) · (W(N, kk) · S(N, 0))) + B(0, N); run k of its sum is the 256 terms from 256 k on.
-/
import proofs.«107569_j20607253086856_1_alg».proof.Proof.Data
import proofs.«107569_j20607253086856_1_alg».proof.Proof.Spec

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable (m : (ℓ : Loc nD τ sig) → Buf (Elt Ideal) ℓ)

/-- The arrays the windows stage, as the region finds them. -/
abbrev xarr (c : Dev nD) : S8192x4096.Idx → EReal := V m c main_v0
abbrev warr (c : Dev nD) : S11008x4096.Idx → EReal := V m c main_arg1
abbrev sarr (c : Dev nD) : S11008x1.Idx → EReal := V m c main_v1
abbrev barr (c : Dev nD) : S1x11008.Idx → EReal := V m c main_v2

/-- Term `kk` of the product of row `R` of `x` with the scaled row `N` of `w` (zero past the 4096 terms, so that
    runs may be indexed by plain numbers). -/
def term (c : Dev nD) (R : Fin 8192) (N : Fin 11008) (kk : ℕ) : EReal :=
  if h : kk < 4096 then xarr m c (ix2 R ⟨kk, h⟩) * (warr m c (ix2 N ⟨kk, h⟩) * sarr m c (ix2 N (0 : Fin 1))) else 0

/-- Run `k` of that product: its 256 terms from `256 k` on. -/
def part (c : Dev nD) (R : Fin 8192) (N : Fin 11008) (k : ℕ) : EReal := ∑ q : Fin 256, term m c R N (256 * k + q.val)

/-- The result's entry at (R, N). -/
def outSpec (c : Dev nD) (R : Fin 8192) (N : Fin 11008) : EReal :=
  (∑ kk : Fin 4096, xarr m c (ix2 R kk) * (warr m c (ix2 N kk) * sarr m c (ix2 N (0 : Fin 1)))) + barr m c (ix2 (0 : Fin 1) N)

/-- The whole sum is the running total of the sixteen runs (`Spec.accFold_runs`). -/
theorem outSpec_eq (c : Dev nD) (R : Fin 8192) (N : Fin 11008) :
    outSpec m c R N = Cert.Spec.accFold (part m c R N) 15 + barr m c (ix2 (0 : Fin 1) N) := by
  have h : (∑ kk : Fin 4096, xarr m c (ix2 R kk) * (warr m c (ix2 N kk) * sarr m c (ix2 N (0 : Fin 1))))
      = ∑ kk : Fin 4096, term m c R N kk.val :=
    Finset.sum_congr rfl fun kk _ => by unfold term; rw [dif_pos kk.isLt]
  have hp : part m c R N = fun k => ∑ q : Fin 256, term m c R N (256 * k + q.val) := funext fun k => rfl
  unfold outSpec
  rw [h, hp, Cert.Spec.accFold_runs (term m c R N)]

end Cert.KernelIdeal.Hand

end
-- ==== Proof.AccValue.lean ====
/-
  The accumulator, point by point, in closed form.

  At point (i, j, k) the accumulator's block holds, at row r and a column n inside the array, the running total of
  runs 0 … k of the product of row 2048 i + r of `x` with the scaled row 1536 j + n of `w` — started from zero at
  k = 0 and grown by one run per point — and at k = 15 that total plus the bias at column 1536 j + n. By induction on
  k along the sixteen consecutive points of one (i, j): the body's value at an index (`bodyOut_apply`), the input
  blocks at an index (`in0_apply` … `in3_apply`), and the recursion `outsAt_pos`.
-/
import proofs.«107569_j20607253086856_1_alg».proof.Proof.ValueDefs
import proofs.«107569_j20607253086856_1_alg».proof.Proof.Blocks
import proofs.«107569_j20607253086856_1_alg».proof.Proof.Payload

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable (m : (ℓ : Loc nD τ sig) → Buf (Elt Ideal) ℓ)

/-- The accumulator's block after the body at point `t`, at row `r` and a column `n` inside the array. -/
theorem outsAt_apply (c : Dev nD) (t : Fin cfg0.N) (r : Fin 2048) (n : Fin 1536) (hn : n.val < lim t)
    (R : Fin 8192) (N : Fin 11008) (hR : R.val = 2048 * (grid0.coords t 0).val + r.val)
    (hN : N.val = 1536 * (grid0.coords t 1).val + n.val) :
    outsAt m c t.val t.isLt (ix2 r n)
      = if (grid0.coords t 2).val = 15 then Cert.Spec.accFold (part m c R N) 15 + barr m c (ix2 (0 : Fin 1) N)
        else Cert.Spec.accFold (part m c R N) (grid0.coords t 2).val := by
  -- the statement for every point of value v, by strong induction on v
  have key : ∀ (v : ℕ) (t : Fin cfg0.N), t.val = v → ∀ (r : Fin 2048) (n : Fin 1536), n.val < lim t →
      ∀ (R : Fin 8192) (N : Fin 11008), R.val = 2048 * (grid0.coords t 0).val + r.val →
      N.val = 1536 * (grid0.coords t 1).val + n.val →
      outsAt m c t.val t.isLt (ix2 r n)
        = if (grid0.coords t 2).val = 15 then Cert.Spec.accFold (part m c R N) 15 + barr m c (ix2 (0 : Fin 1) N)
          else Cert.Spec.accFold (part m c R N) (grid0.coords t 2).val := by
    intro v
    induction v using Nat.strong_induction_on with
    | _ v ih =>
      intro t htv r n hn R N hR hN
      have hlt : t.val < 512 := Nat.lt_of_lt_of_eq t.isLt N_0
      have hk : (grid0.coords t 2).val = t.val % 16 := coord2 t
      have hk16 : (grid0.coords t 2).val < 16 := by omega
      -- the body's sum at (r, n) is run k of the product of row R with the scaled row N
      have hsum : (∑ q : Fin 256, in0 m c t (ix2 r q) * (in1 m c t (ix2 n q) * in2 m c t (ix2 n (0 : Fin 1))))
          = part m c R N (grid0.coords t 2).val := by
        unfold part
        refine Finset.sum_congr rfl fun q _ => ?_
        have hq : 256 * (grid0.coords t 2).val + q.val < 4096 := by have := q.isLt; omega
        unfold term
        rw [dif_pos hq, in0_apply m c t r q R ⟨_, hq⟩ hR rfl, in1_apply m c t n q hn N ⟨_, hq⟩ hN rfl,
          in2_apply m c t n hn N hN]
      -- the body's value at (r, n) over any accumulator found
      have hbody : ∀ X4 : Vec Ideal S2048x1536 .f32,
          bodyOut (F := Ideal) (grid0.coords t 2).val (in0 m c t) (in1 m c t) (in2 m c t) (in3 m c t) X4 (ix2 r n)
            = if (grid0.coords t 2).val = 0 then 0 + part m c R N (grid0.coords t 2).val
              else if (grid0.coords t 2).val = 15 then
                (X4 (ix2 r n) + part m c R N (grid0.coords t 2).val) + barr m c (ix2 (0 : Fin 1) N)
              else X4 (ix2 r n) + part m c R N (grid0.coords t 2).val := by
        intro X4
        rw [bodyOut_apply, hsum, in3_apply m c t n hn N hN]
      by_cases hk0 : (grid0.coords t 2).val = 0
      · -- k = 0: the total starts from zero
        have hb : outsAt m c t.val t.isLt (ix2 r n) = 0 + part m c R N (grid0.coords t 2).val := by
          by_cases ht0 : t.val = 0
          · have e : outsAt m c t.val t.isLt
                = bodyOut (grid0.coords t 2).val (in0 m c t) (in1 m c t) (in2 m c t) (in3 m c t) (fun _ => zw) := by
              obtain ⟨tv, htv'⟩ := t
              have ht0' : tv = 0 := ht0
              subst ht0'
              exact outsAt_zero m c htv'
            rw [e, hbody, if_pos hk0]
          · rw [outsAt_pos m c t ht0, hbody, if_pos hk0]
        rw [hb, hk0, if_neg (by decide), Cert.Spec.accFold_zero]
      · -- k ≠ 0: the accumulator found is the block the point before left, at (i, j, k - 1)
        have ht0 : t.val ≠ 0 := by intro h; apply hk0; omega
        have hlt' : t.val - 1 < cfg0.N := Nat.lt_of_le_of_lt (Nat.sub_le _ _) t.isLt
        have h0 := coord0 t
        have h1 := coord1 t
        have h0' := coord0 (⟨t.val - 1, hlt'⟩ : Fin cfg0.N)
        have h1' := coord1 (⟨t.val - 1, hlt'⟩ : Fin cfg0.N)
        have h2' := coord2 (⟨t.val - 1, hlt'⟩ : Fin cfg0.N)
        have hv' : (⟨t.val - 1, hlt'⟩ : Fin cfg0.N).val = t.val - 1 := rfl
        rw [hv'] at h0' h1' h2'
        have hn' : n.val < lim (⟨t.val - 1, hlt'⟩ : Fin cfg0.N) := by
          rw [lim_congr (t := (⟨t.val - 1, hlt'⟩ : Fin cfg0.N)) (t' := t) (by omega)]
          exact hn
        have ih' : outsAt m c (t.val - 1) hlt' (ix2 r n)
            = if (grid0.coords (⟨t.val - 1, hlt'⟩ : Fin cfg0.N) 2).val = 15 then
                Cert.Spec.accFold (part m c R N) 15 + barr m c (ix2 (0 : Fin 1) N)
              else Cert.Spec.accFold (part m c R N) (grid0.coords (⟨t.val - 1, hlt'⟩ : Fin cfg0.N) 2).val :=
          ih (t.val - 1) (by omega) ⟨t.val - 1, hlt'⟩ rfl r n hn' R N (by omega) (by omega)
        have hk15' : (grid0.coords (⟨t.val - 1, hlt'⟩ : Fin cfg0.N) 2).val ≠ 15 := by omega
        have hkk : (grid0.coords t 2).val = (grid0.coords (⟨t.val - 1, hlt'⟩ : Fin cfg0.N) 2).val + 1 := by omega
        rw [outsAt_pos m c t ht0, hbody, if_neg hk0, ih', if_neg hk15']
        by_cases hk15 : (grid0.coords t 2).val = 15
        · -- k = 15: the last run, then the bias
          have h14 : (grid0.coords (⟨t.val - 1, hlt'⟩ : Fin cfg0.N) 2).val = 14 := by omega
          rw [if_pos hk15, if_pos hk15, h14, hk15, Cert.Spec.accFold_succ (part m c R N) 14]
        · -- 0 < k < 15: one more run
          rw [if_neg hk15, if_neg hk15, hkk, Cert.Spec.accFold_succ]
  exact key t.val t rfl r n hn R N hR hN

end Cert.KernelIdeal.Hand

end
-- ==== Proof.ArrFinal.lean ====
/-
  The result array after the run.

  The result's block is written back at the points with k = 15, one per (i, j): the 32 blocks so written tile the
  [8192, 11008] array (the last column block cut to its 256 columns inside the array), and what each writes is the
  accumulator after the sixteenth run plus the bias (`outsAt_apply` at k = 15), which is the result's entry
  (`outSpec_eq`). So the array ends at `outSpec` everywhere.
-/
import proofs.«107569_j20607253086856_1_alg».proof.Proof.ValueDefs
import proofs.«107569_j20607253086856_1_alg».proof.Proof.Blocks
import proofs.«107569_j20607253086856_1_alg».proof.Proof.AccValue

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable (m : (ℓ : Loc nD τ sig) → Buf (Elt Ideal) ℓ)

/-- The result's block index at a point (i, j, k): (i, j). -/
theorem index4 : ∀ t : Fin cfg0.N, win0_4.index t 0 = (grid0.coords t 0).val ∧ win0_4.index t 1 = (grid0.coords t 1).val :=
  (by decide +kernel : ∀ t : Fin grid0.N, win0_4.index t 0 = (grid0.coords t 0).val ∧ win0_4.index t 1 = (grid0.coords t 1).val)

/-- The result as one function of the whole array's index: `outSpec` at the index's row and column. -/
def outArr (c : Dev nD) : S8192x11008.Idx → EReal :=
  fun idx => outSpec m c ⟨(idx 0).val, (idx 0).isLt⟩ ⟨(idx 1).val, (idx 1).isLt⟩

/-- What a point with k = 15 writes back is its block of `outArr`: entry (r, n) of the block's part inside the
    array sits at row 2048 i + r, column 1536 j + n, and there the accumulator after the sixteenth run plus the
    bias is `outSpec`. -/
theorem flushed4_eq (c : Dev nD) (t : Fin cfg0.N) (hf : (cfg0.win 4).flush t = true) :
    (dats m 0 c).flushed 4 t = ((cfg0.win 4).blk t).view.read (Elt Ideal) (outArr m c) := by
  have hk : t.val % 16 = 15 := (flush0_4 t).mp hf
  obtain ⟨i0, i1⟩ := index4 t
  obtain ⟨x0, x1⟩ := xsize4 t
  show win0_4.cut (grid0.coords t) ((dats m 0 c).after 4 t) = _
  rw [after_4]
  funext j
  rw [View.read_apply]
  -- the block's part inside the array: every row, the columns below the limit
  have hj0 : (j 0).val < 2048 := by have h := (j 0).isLt; rw [← x0]; exact h
  have hj1 : (j 1).val < lim t := by have h := (j 1).isLt; unfold lim; rw [← x1]; exact h
  have hj1' : (j 1).val < 1536 := by have := lim_le t; omega
  have hc0 := coord0 t; have hc1 := coord1 t; have hc2 := coord2 t
  have htN : t.val < 512 := t.isLt
  have hRb : 2048 * (grid0.coords t 0).val + (j 0).val < 8192 := by omega
  have hNb : 1536 * (grid0.coords t 1).val + (j 1).val < 11008 := lim_inb t ⟨(j 1).val, hj1'⟩ hj1
  -- the staging block's entry, at k = 15
  have e := outsAt_apply m c t ⟨(j 0).val, hj0⟩ ⟨(j 1).val, hj1'⟩ hj1 ⟨_, hRb⟩ ⟨_, hNb⟩ rfl rfl
  rw [if_pos (by omega)] at e
  have hx : win0_4.xinj (grid0.coords t) j = ix2 (⟨(j 0).val, hj0⟩ : Fin 2048) (⟨(j 1).val, hj1'⟩ : Fin 1536) := by
    funext a
    match a with
    | ⟨0, _⟩ => rfl
    | ⟨1, _⟩ => rfl
  show outsAt m c t.val t.isLt (win0_4.xinj (grid0.coords t) j) = outArr m c (((cfg0.win 4).blk t).view.emb j)
  rw [hx, e]
  unfold outArr
  rw [outSpec_eq]
  -- the array index under the block's entry: block index times block size plus the entry's coordinate
  have hR' : (⟨((((cfg0.win 4).blk t).view.emb j) 0).val, ((((cfg0.win 4).blk t).view.emb j) 0).isLt⟩ : Fin 8192)
      = ⟨2048 * (grid0.coords t 0).val + (j 0).val, hRb⟩ := by
    apply Fin.ext
    show win0_4.index t 0 * 2048 + 1 * (j 0).val = 2048 * (grid0.coords t 0).val + (j 0).val
    rw [i0]; omega
  have hN' : (⟨((((cfg0.win 4).blk t).view.emb j) 1).val, ((((cfg0.win 4).blk t).view.emb j) 1).isLt⟩ : Fin 11008)
      = ⟨1536 * (grid0.coords t 1).val + (j 1).val, hNb⟩ := by
    apply Fin.ext
    show win0_4.index t 1 * 1536 + 1 * (j 1).val = 1536 * (grid0.coords t 1).val + (j 1).val
    rw [i1]; omega
  rw [hR', hN']

/-- The result array after every write-back, entry by entry. -/
theorem arr_final (c : Dev nD) (R : Fin 8192) (N : Fin 11008) :
    (dats m 0 c).arrAt 4 cfg0.N (ix2 R N) = outSpec m c R N := by
  have hR : R.val < 8192 := R.isLt
  have hN : N.val < 11008 := N.isLt
  -- the point (R / 2048, N / 1536, 15) writes back the block that holds (R, N)
  obtain ⟨t, ht⟩ : ∃ t : Fin cfg0.N, t.val = 128 * (R.val / 2048) + 16 * (N.val / 1536) + 15 :=
    ⟨⟨128 * (R.val / 2048) + 16 * (N.val / 1536) + 15, by show _ < 512; omega⟩, rfl⟩
  have hf : (cfg0.win 4).flush t = true := (flush0_4 t).mpr (by omega)
  obtain ⟨i0, i1⟩ := index4 t
  obtain ⟨x0, x1⟩ := xsize4 t
  have hc0 := coord0 t
  have hc1 := coord1 t
  have hmem : ix2 R N ∈ ((cfg0.win 4).blk t).view.set := by
    show ix2 R N ∈ ((View.whole main_v3).slice (win0_4.rect t)).set
    rw [View.set_slice_whole, Rect.mem_set_unit]
    intro a
    match a with
    | ⟨0, _⟩ =>
      show win0_4.index t 0 * 2048 ≤ R.val ∧ R.val < win0_4.index t 0 * 2048 + win0_4.xsize (grid0.coords t) 0
      rw [i0, x0, hc0]; omega
    | ⟨1, _⟩ =>
      show win0_4.index t 1 * 1536 ≤ N.val ∧ N.val < win0_4.index t 1 * 1536 + win0_4.xsize (grid0.coords t) 1
      rw [i1, x1, hc1]; omega
  exact (dats m 0 c).arrAt_apply_of_mem 4 (outArr m c) (fun t hf => flushed4_eq m c t hf) cfg0.N t (ix2 R N) t.isLt hf hmem

end Cert.KernelIdeal.Hand

end
-- ==== Proof.TailValue.lean ====
/-
  From the result array to the program's result.

  The host lines before the region only re-lay arrays: `x` [4, 2048, 4096] as [8192, 4096] (row 2048 p + r is
  (p, r)), the scale [11008] as a column, the bias [11008] as a row; `w` is used as launched. The one line after it
  re-lays the result [8192, 11008] as [4, 2048, 11008]. Read at an index through these the result's entry
  (`outSpec`) is the common function `Spec.G` of the four arguments.
-/
import proofs.«107569_j20607253086856_1_alg».proof.Proof.ValueDefs
import proofs.«107569_j20607253086856_1_alg».proof.Proof.ArrFinal
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable (m : (ℓ : Loc nD τ sig) → Buf (Elt Ideal) ℓ)

/-! ## A re-laid array read at an index -/

/-- `x` re-laid as [8192, 4096], read at row `2048 p + r`, is `x` at `(p, r, kk)`. -/
theorem x_read (X : S4x2048x4096.Idx → EReal) (p : Fin 4) (r : Fin 2048) (kk : Fin 4096) (R : Fin 8192)
    (hR : R.val = 2048 * p.val + r.val) :
    shapeCast S8192x4096 X shapeCasts_S4x2048x4096_S8192x4096 (ix2 R kk) = X (ix3 p r kk) :=
  shapeCast_apply X _ (ix2 R kk) (ix3 p r kk) (by
    rw [Shape.rowMajor_val_three, Shape.rowMajor_val_two]
    show (p.val * 2048 + r.val) * 4096 + kk.val = R.val * 4096 + kk.val
    omega)

/-- The scale re-laid as a column, read at `(o, 0)`, is the scale at `o`. -/
theorem s_read (S : S11008.Idx → EReal) (o : Fin 11008) :
    shapeCast S11008x1 S shapeCasts_S11008_S11008x1 (ix2 o (0 : Fin 1)) = S (ix1 o) :=
  shapeCast_apply S _ (ix2 o (0 : Fin 1)) (ix1 o) (by
    rw [Shape.rowMajor_val_one, Shape.rowMajor_val_two]
    show o.val = o.val * 1 + 0
    omega)

/-- The bias re-laid as a row, read at `(0, o)`, is the bias at `o`. -/
theorem b_read (B : S11008.Idx → EReal) (o : Fin 11008) :
    shapeCast S1x11008 B shapeCasts_S11008_S1x11008 (ix2 (0 : Fin 1) o) = B (ix1 o) :=
  shapeCast_apply B _ (ix2 (0 : Fin 1) o) (ix1 o) (by
    rw [Shape.rowMajor_val_one, Shape.rowMajor_val_two]
    show o.val = 0 * 11008 + o.val
    omega)

/-- The result [8192, 11008] re-laid as [4, 2048, 11008], read at `(p, r, o)`, is the result at row `2048 p + r`. -/
theorem out_read (A : S8192x11008.Idx → EReal) (p : Fin 4) (r : Fin 2048) (o : Fin 11008) (R : Fin 8192)
    (hR : R.val = 2048 * p.val + r.val) :
    shapeCast S4x2048x11008 A shapeCasts_S8192x11008_S4x2048x11008 (ix3 p r o) = A (ix2 R o) :=
  shapeCast_apply A _ (ix3 p r o) (ix2 R o) (by
    rw [Shape.rowMajor_val_three, Shape.rowMajor_val_two]
    show R.val * 11008 + o.val = (p.val * 2048 + r.val) * 11008 + o.val
    omega)

/-! ## The arrays the region finds, and the buffer the program returns -/

/-- The region's first array is `x` re-laid as [8192, 4096]. -/
theorem V_main_v0 (c : Dev nD) : (V m c main_v0 : S8192x4096.Idx → EReal)
    = shapeCast S8192x4096 (m ((c.tc : Thread nD τ).loc main_arg0)) shapeCasts_S4x2048x4096_S8192x4096 := by
  show StableHlo.after hostOps0 (fun b => m (c, b)) (Proc.devRef .tc main_v0) = _
  after_results
  rfl

/-- The region's third array is the scale as a column. -/
theorem V_main_v1 (c : Dev nD) : (V m c main_v1 : S11008x1.Idx → EReal)
    = shapeCast S11008x1 (m ((c.tc : Thread nD τ).loc main_arg2)) shapeCasts_S11008_S11008x1 := by
  show StableHlo.after hostOps0 (fun b => m (c, b)) (Proc.devRef .tc main_v1) = _
  after_results
  rfl

/-- The region's fourth array is the bias as a row. -/
theorem V_main_v2 (c : Dev nD) : (V m c main_v2 : S1x11008.Idx → EReal)
    = shapeCast S1x11008 (m ((c.tc : Thread nD τ).loc main_arg3)) shapeCasts_S11008_S1x11008 := by
  show StableHlo.after hostOps0 (fun b => m (c, b)) (Proc.devRef .tc main_v2) = _
  after_results
  rfl

/-- The returned buffer is the region's result array re-laid as [4, 2048, 11008]. -/
theorem tail_eq (c : Dev nD) :
    (Pipeline.afterTail₀ cfgs (dats m) 0 (V0 m) [hostOps1] c main_v4 : S4x2048x11008.Idx → EReal)
      = shapeCast S4x2048x11008 ((dats m 0 c).arrAt 4 cfg0.N) shapeCasts_S8192x11008_S4x2048x11008 := by
  unfold Pipeline.afterTail₀
  show StableHlo.after hostOps1 _ (Proc.devRef .tc main_v4) = _
  after_results
  have h := Pipeline.withArrays_arr spec0 launch0.win.arr_inj c (V0 m c) (fun w => (dats m 0 c).arrAt w cfg0.N) 4
  exact congrArg (fun A : S8192x11008.Idx → EReal => shapeCast S4x2048x11008 A shapeCasts_S8192x11008_S4x2048x11008) h

/-! ## The result -/

/-- A sum of products over the contraction index plus a bias entry is `G` at `(p, r, o)` once its four factors are
    the arguments' entries: `xa` at row `R` is `x` at `(p, r, ·)`, `wa` is `w`, the column `sa` the scale, the row `ba` the bias. -/
theorem G_of_reads (x : S4x2048x4096.Idx → EReal) (w : S11008x4096.Idx → EReal) (s b : S11008.Idx → EReal)
    (xa : S8192x4096.Idx → EReal) (wa : S11008x4096.Idx → EReal) (sa : S11008x1.Idx → EReal) (ba : S1x11008.Idx → EReal)
    (p : Fin 4) (r : Fin 2048) (o : Fin 11008) (R : Fin 8192)
    (hx : ∀ kk : Fin 4096, xa (ix2 R kk) = x (ix3 p r kk)) (hw : ∀ kk : Fin 4096, wa (ix2 o kk) = w (ix2 o kk))
    (hs : sa (ix2 o (0 : Fin 1)) = s (ix1 o)) (hb : ba (ix2 (0 : Fin 1) o) = b (ix1 o)) :
    (∑ kk : Fin 4096, xa (ix2 R kk) * (wa (ix2 o kk) * sa (ix2 o (0 : Fin 1)))) + ba (ix2 (0 : Fin 1) o)
      = Cert.Spec.G x w s b (ix3 p r o) := by
  show _ = (∑ k : Fin 4096, x (ix3 p r k) * (w (ix2 o k) * s (ix1 o))) + b (ix1 o)
  rw [hs, hb]
  exact congrArg (· + b (ix1 o)) (Finset.sum_congr rfl fun kk _ => by rw [hx kk, hw kk])

/-- The program's result buffer after the run is `G` of the four arguments as launched. -/
theorem v4_final (c : Dev nD) :
    Pipeline.afterTail₀ cfgs (dats m) 0 (V0 m) [hostOps1] c main_v4
      = Cert.Spec.G (m ((c.tc : Thread nD τ).loc main_arg0)) (m ((c.tc : Thread nD τ).loc main_arg1))
          (m ((c.tc : Thread nD τ).loc main_arg2)) (m ((c.tc : Thread nD τ).loc main_arg3)) := by
  funext i
  obtain ⟨p, r, o, rfl⟩ : ∃ (p : Fin 4) (r : Fin 2048) (o : Fin 11008), i = ix3 p r o := ⟨i 0, i 1, i 2, eq_ix3 i⟩
  have hR : 2048 * p.val + r.val < 8192 := by have := p.isLt; have := r.isLt; omega
  -- the entry (p, r, o) of the returned buffer is the result array's entry (2048 p + r, o)
  rw [tail_eq m c, out_read _ p r o ⟨2048 * p.val + r.val, hR⟩ rfl, arr_final m c ⟨2048 * p.val + r.val, hR⟩ o]
  -- the arrays the region read, at the indices of the sum, are the arguments' entries
  have hx : ∀ kk : Fin 4096, xarr m c (ix2 (⟨2048 * p.val + r.val, hR⟩ : Fin 8192) kk)
      = (m ((c.tc : Thread nD τ).loc main_arg0) : S4x2048x4096.Idx → EReal) (ix3 p r kk) := fun kk => by
    show (V m c main_v0 : S8192x4096.Idx → EReal) (ix2 _ kk) = _
    rw [V_main_v0 m c]
    exact x_read _ p r kk _ rfl
  have hw : ∀ kk : Fin 4096, warr m c (ix2 o kk)
      = (m ((c.tc : Thread nD τ).loc main_arg1) : S11008x4096.Idx → EReal) (ix2 o kk) := fun kk => by
    show (V m c main_arg1 : S11008x4096.Idx → EReal) (ix2 o kk) = _
    rw [V_main_arg1 m c]
  have hs : sarr m c (ix2 o (0 : Fin 1)) = (m ((c.tc : Thread nD τ).loc main_arg2) : S11008.Idx → EReal) (ix1 o) := by
    show (V m c main_v1 : S11008x1.Idx → EReal) (ix2 o (0 : Fin 1)) = _
    rw [V_main_v1 m c]
    exact s_read _ o
  have hb : barr m c (ix2 (0 : Fin 1) o) = (m ((c.tc : Thread nD τ).loc main_arg3) : S11008.Idx → EReal) (ix1 o) := by
    show (V m c main_v2 : S1x11008.Idx → EReal) (ix2 (0 : Fin 1) o) = _
    rw [V_main_v2 m c]
    exact b_read _ o
  -- both sides are the same sum over the contraction index plus the bias entry
  exact G_of_reads _ _ _ _ (xarr m c) (warr m c) (sarr m c) (barr m c) p r o _ hx hw hs hb

end Cert.KernelIdeal.Hand

end
-- ==== Proof.KernelValue.lean ====
/-
  The idealized kernel's run with its result named: every weakly fair execution of @main terminates, the result
  buffer ends at the common function `Spec.G` of the four arguments as launched, and those end unchanged. The frame
  run's post has every buffer no window stages at what the host line after the region makes of the arrays
  (`v4_final` for the result), the staged argument `w` at its entry contents, and the other arguments as launched.
-/
import proofs.«107569_j20607253086856_1_alg».proof.Proof.IdealRun
import proofs.«107569_j20607253086856_1_alg».proof.Proof.TailValue

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The kernel's run at the extended reals: the result is `G` of the arguments, the arguments unchanged. -/
theorem run_value : θ_run defs (onTc (τ := τ) (main (F := Ideal))) ⟨m, fun _ => 0, ρ⟩ (fun r => ∀ c : Dev nD,
      r.2.mem ((c.tc : Thread nD τ).loc main_v4)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (v4_final m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference's result, index by index, is the common function `Spec.G` of its four arguments: the scale is
  broadcast along each row of `w` and multiplied in, the rows of `x` are contracted against the scaled rows of
  `w`, and the bias is broadcast over the leading axes and added.
-/
import proofs.«107569_j20607253086856_1_alg».proof.Proof.Gen.ReferenceIdeal.Run
import proofs.«107569_j20607253086856_1_alg».proof.Proof.Gen.ReferenceIdeal.Read
import proofs.«107569_j20607253086856_1_alg».proof.Proof.Spec

noncomputable section

namespace Cert.ReferenceIdeal.RefValue

open Idealize.ShloMosaic Idealize.ShloMosaic.ValueIdx Cert.ReferenceIdeal Cert.ReferenceIdeal.Gen Cert.ReferenceIdeal.Read

/-- The reference's last stage at the extended reals is `G`. -/
theorem ref_eq (x0 : (⟨S4x2048x4096, .f32⟩ : BufTy).Contents (Elt Ideal)) (x1 : (⟨S11008x4096, .f32⟩ : BufTy).Contents (Elt Ideal))
    (x2 x3 : (⟨S11008, .f32⟩ : BufTy).Contents (Elt Ideal)) :
    val_main_v6 (F := Ideal) x0 x1 x2 x3 = Cert.Spec.G x0 x1 x2 x3 := by
  funext i
  obtain ⟨p, r, o, rfl⟩ : ∃ (p : Fin 4) (r : Fin 2048) (o : Fin 11008), i = ValueIdx.ix3 p r o :=
    ⟨i 0, i 1, i 2, ValueIdx.eq_ix3 i⟩
  -- the index functions of the layout steps, composed, are the coordinate indices of the statement
  have e3 : ∀ k : Fin 4096, lidx_main_v3 (ValueIdx.ix3 p r o) k = ValueIdx.ix3 p r k := fun k =>
    funext fun a => Fin.ext (by match a with | ⟨0, _⟩ => rfl | ⟨1, _⟩ => rfl | ⟨2, _⟩ => rfl)
  have e2 : ∀ k : Fin 4096, ridx_main_v3 (ValueIdx.ix3 p r o) k = ValueIdx.ix2 o k := fun k =>
    funext fun a => Fin.ext (by match a with | ⟨0, _⟩ => rfl | ⟨1, _⟩ => rfl)
  have e1 : ∀ k : Fin 4096, idx_main_v0 (idx_main_v1 (ValueIdx.ix2 o k)) = ValueIdx.ix1 o := fun k =>
    funext fun a => Fin.ext (by match a with | ⟨0, _⟩ => rfl)
  have e0 : idx_main_v4 (idx_main_v5 (ValueIdx.ix3 p r o)) = ValueIdx.ix1 o :=
    funext fun a => Fin.ext (by match a with | ⟨0, _⟩ => rfl)
  show _ = (∑ k : Fin 4096, x0 (ValueIdx.ix3 p r k) * (x1 (ValueIdx.ix2 o k) * x2 (ValueIdx.ix1 o))) + x3 (ValueIdx.ix1 o)
  rw [val_main_v6_apply, val_main_v3_apply, val_main_v5_apply, val_main_v4_apply, e0, Ideal.addf_def]
  congr 1
  refine Finset.sum_congr rfl fun k _ => ?_
  rw [val_main_v2_apply, e2, val_main_v1_apply, val_main_v0_apply, e1, e3, Ideal.mulf_def]

end Cert.ReferenceIdeal.RefValue

end
-- ==== Proof.lean ====
/-
  The certificate: a fused dequantise–matmul–bias kernel against its reference.

  The kernel walks a 4 × 8 × 16 grid; at point (i, j, k) it multiplies a [2048, 256] block of `x` with a
  [1536, 256] block of `w` whose rows are first scaled by the per-row scale, and adds the product into the result's
  [2048, 1536] block, which stays in its staging buffer over the sixteen values of k: zeroed at k = 0, the bias row
  added at k = 15, written back then. The reference scales `w`, contracts `x` against it whole, and adds the bias.
  Over the extended reals both are (∑ i < 4096, x(p, r, i) · (w(o, i) · s(o))) + b(o): the kernel's running total of
  sixteen runs of 256 terms is the whole sum by associativity and commutativity of addition alone, so no finiteness
  is used and the precondition is never opened. The last column block overhangs the arrays (11008 = 7 · 1536 + 256):
  the staging rows past the arrays' end hold words nothing names, but column n of the result reads row n of `w`, of
  the scale and entry n of the bias only, and the write-back is cut at the array's end.

  The three frames: the word-level kernel's from relational proof data that say nothing of what the body leaves
  (at the word level the matrix unit's product is a function of its whole operands, the unnamed rows included); the
  idealized kernel's from its value run; the reference's from its run with the result dropped. The ideal pass
  rewrote nothing, so the idealization claim is trivial.
-/
import proofs.«107569_j20607253086856_1_alg».proof.Defs
import proofs.«107569_j20607253086856_1_alg».proof.Proof.Gen.Kernel
import proofs.«107569_j20607253086856_1_alg».proof.Proof.Gen.KernelIdeal
import proofs.«107569_j20607253086856_1_alg».proof.Proof.Gen.ReferenceIdeal
import proofs.«107569_j20607253086856_1_alg».proof.Proof.Gen.ReferenceIdeal.Run
import proofs.«107569_j20607253086856_1_alg».proof.Proof.Gen.ReferenceIdeal.Read
import proofs.«107569_j20607253086856_1_alg».proof.Proof.Gen.Pre_finite_inputs
import proofs.«107569_j20607253086856_1_alg».proof.Proof.FrameBits
import proofs.«107569_j20607253086856_1_alg».proof.Proof.KernelValue
import proofs.«107569_j20607253086856_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame_bits (F := Bits) m ρ

/-- So does the idealized kernel. -/
theorem frame_ki : Cert.frame_KernelIdeal := fun m ρ _ => Cert.KernelIdeal.Hand.frame_ideal m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals, from memories that agree on the arguments, both programs end with the result at
    `G` of the arguments: the kernel by its value run, the reference by its run read stage by stage. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
